-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x8192x2048 : Shape := ⟨3, ![8, 8192, 2048]⟩
abbrev S8x8x2048 : Shape := ⟨3, ![8, 8, 2048]⟩
abbrev S8x8192x8 : Shape := ⟨3, ![8, 8192, 8]⟩
abbrev S8x2048x4096 : Shape := ⟨3, ![8, 2048, 4096]⟩
abbrev S8x8x4096 : Shape := ⟨3, ![8, 8, 4096]⟩
abbrev S8x2048x8 : Shape := ⟨3, ![8, 2048, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8x2048 : S_.BroadcastsInDim S8x8x2048 (![] : Fin 0 → Fin S8x8x2048.rank)
  reducesTo_S8x8x2048_S_d0_1_2 : S8x8x2048.ReducesTo [0, 1, 2] S_
  bcast_S_S8x8192x8 : S_.BroadcastsInDim S8x8192x8 (![] : Fin 0 → Fin S8x8192x8.rank)
  reducesTo_S8x8192x8_S_d0_1_2 : S8x8192x8.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x8x4096 : S_.BroadcastsInDim S8x8x4096 (![] : Fin 0 → Fin S8x8x4096.rank)
  reducesTo_S8x8x4096_S_d0_1_2 : S8x8x4096.ReducesTo [0, 1, 2] S_
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn_part1 {F : FTy → Type} [FloatOps F] (main_arg4 : FVec F S8x2048x4096 .f32) (main_arg5 : FVec F S8x8x4096 .f32) (main_arg6 : FVec F S8x2048x8 .f32) (main_v13 : IVec S_ 1) (main_v16 : IVec S8x8192x8 1) : IVec S_ 1 :=
  let main_c_5 : IVec S_ 1 := constantI S_ 1 1#1
  let main_v17 : IVec S_ 1 := (fun x v => Host.reduce IntOp.andi x v reducesTo_S8x8192x8_S_d0_1_2 h_S_) main_v16 main_c_5
  let main_v18 : IVec S_ 1 := andi main_v13 main_v17
  let main_v19 : FVec F S8x2048x4096 .f32 := Host.absf main_arg4
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  let main_v24 : FVec F S8x8x4096 .f32 := Host.absf main_arg5
  let main_cst_8 : FVec F S_ .f32 := constant S_ .f32 0x7F800000#32
  let main_v25 : FVec F S8x8x4096 .f32 := broadcastInDim S8x8x4096 ![] bcast_S_S8x8x4096 main_cst_8
  let main_v26 : IVec S8x8x4096 1 := cmpf .olt main_v24 main_v25
  let main_c_9 : IVec S_ 1 := constantI S_ 1 1#1
  let main_v27 : IVec S_ 1 := (fun x v => Host.reduce IntOp.andi x v reducesTo_S8x8x4096_S_d0_1_2 h_S_) main_v26 main_c_9
  let main_v28 : IVec S_ 1 := andi main_v23 main_v27
  let main_v29 : FVec F S8x2048x8 .f32 := Host.absf main_arg6
  let main_cst_10 : FVec F S_ .f32 := constant S_ .f32 0x7F800000#32
  let main_v30 : FVec F S8x2048x8 .f32 := broadcastInDim S8x2048x8 ![] bcast_S_S8x2048x8 main_cst_10
  let main_v31 : IVec S8x2048x8 1 := cmpf .olt main_v29 main_v30
  let main_c_11 : IVec S_ 1 := constantI S_ 1 1#1
  let main_v32 : IVec S_ 1 := (fun x v => Host.reduce IntOp.andi x v reducesTo_S8x2048x8_S_d0_1_2 h_S_) main_v31 main_c_11
  let main_v33 : IVec S_ 1 := andi main_v28 main_v32
  main_v33

def fn {F : FTy → Type} [FloatOps F] (main_arg0 : FVec F S16384x2048 .f32) (main_arg1 : FVec F S8x8192x2048 .f32) (main_arg2 : FVec F S8x8x2048 .f32) (main_arg3 : FVec F S8x8192x8 .f32) (main_arg4 : FVec F S8x2048x4096 .f32) (main_arg5 : FVec F S8x8x4096 .f32) (main_arg6 : FVec F S8x2048x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8x2048 .f32 := Host.absf main_arg2
  let main_cst_2 : FVec F S_ .f32 := constant S_ .f32 0x7F800000#32
  let main_v10 : FVec F S8x8x2048 .f32 := broadcastInDim S8x8x2048 ![] bcast_S_S8x8x2048 main_cst_2
  let main_v11 : IVec S8x8x2048 1 := cmpf .olt main_v9 main_v10
  let main_c_3 : IVec S_ 1 := constantI S_ 1 1#1
  let main_v12 : IVec S_ 1 := (fun x v => Host.reduce IntOp.andi x v reducesTo_S8x8x2048_S_d0_1_2 h_S_) main_v11 main_c_3
  let main_v13 : IVec S_ 1 := andi main_v8 main_v12
  let main_v14 : FVec F S8x8192x8 .f32 := Host.absf main_arg3
  let main_cst_4 : FVec F S_ .f32 := constant S_ .f32 0x7F800000#32
  let main_v15 : FVec F S8x8192x8 .f32 := broadcastInDim S8x8192x8 ![] bcast_S_S8x8192x8 main_cst_4
  let main_v16 : IVec S8x8192x8 1 := cmpf .olt main_v14 main_v15
  fn_part1 (F := F) main_arg4 main_arg5 main_arg6 main_v13 main_v16
-- ==== Kernel.lean ====
abbrev S16384x2048 : Shape := ⟨2, ![16384, 2048]⟩
abbrev S8x8192x2048 : Shape := ⟨3, ![8, 8192, 2048]⟩
abbrev S8x8x2048 : Shape := ⟨3, ![8, 8, 2048]⟩
abbrev S8x8192x8 : Shape := ⟨3, ![8, 8192, 8]⟩
abbrev S8x2048x4096 : Shape := ⟨3, ![8, 2048, 4096]⟩
abbrev S8x8x4096 : Shape := ⟨3, ![8, 8, 4096]⟩
abbrev S8x2048x8 : Shape := ⟨3, ![8, 2048, 8]⟩
abbrev S8x2048x2048 : Shape := ⟨3, ![8, 2048, 2048]⟩
abbrev S8x4096x2048 : Shape := ⟨3, ![8, 4096, 2048]⟩
abbrev S8x4096x8 : Shape := ⟨3, ![8, 4096, 8]⟩
abbrev S1x2048x2048 : Shape := ⟨3, ![1, 2048, 2048]⟩
abbrev S1x512x2048 : Shape := ⟨3, ![1, 512, 2048]⟩
abbrev S1x8x2048 : Shape := ⟨3, ![1, 8, 2048]⟩
abbrev S1x512x8 : Shape := ⟨3, ![1, 512, 8]⟩
abbrev S1x2048x512 : Shape := ⟨3, ![1, 2048, 512]⟩
abbrev S2048x2048 : Shape := ⟨2, ![2048, 2048]⟩
abbrev S512x2048 : Shape := ⟨2, ![512, 2048]⟩
abbrev S8x2048 : Shape := ⟨2, ![8, 2048]⟩
abbrev S512x8 : Shape := ⟨2, ![512, 8]⟩
abbrev S2048x512 : Shape := ⟨2, ![2048, 512]⟩
abbrev S2048x8 : Shape := ⟨2, ![2048, 8]⟩
abbrev S1x2048x4096 : Shape := ⟨3, ![1, 2048, 4096]⟩
abbrev S1x512x4096 : Shape := ⟨3, ![1, 512, 4096]⟩
abbrev S1x8x4096 : Shape := ⟨3, ![1, 8, 4096]⟩
abbrev S2048x4096 : Shape := ⟨2, ![2048, 4096]⟩
abbrev S512x4096 : Shape := ⟨2, ![512, 4096]⟩
abbrev S8x4096 : Shape := ⟨2, ![8, 4096]⟩

abbrev nBuf : Space → Nat
  | .hbm => 15
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8x2048, .f32⟩
  | .hbm, ⟨3, _⟩ => ⟨S8x8192x8, .f32⟩
  | .hbm, ⟨4, _⟩ => ⟨S8x2048x4096, .f32⟩
  | .hbm, ⟨5, _⟩ => ⟨S8x8x4096, .f32⟩
  | .hbm, ⟨6, _⟩ => ⟨S8x2048x8, .f32⟩
  | .hbm, ⟨7, _⟩ => ⟨S8x2048x2048, .f32⟩
  | .hbm, ⟨8, _⟩ => ⟨S8x4096x2048, .f32⟩
  | .hbm, ⟨9, _⟩ => ⟨S8x4096x2048, .f32⟩
  | .hbm, ⟨10, _⟩ => ⟨S8x4096x8, .f32⟩
  | .hbm, ⟨11, _⟩ => ⟨S8x4096x8, .f32⟩
  | .hbm, ⟨12, _⟩ => ⟨S8x2048x4096, .bf16⟩
  | .hbm, ⟨13, _⟩ => ⟨S8x2048x2048, .f32⟩
  | .hbm, ⟨14, _⟩ => ⟨S16384x2048, .f32⟩
  | .local _ .vmem, ⟨0, _⟩ => ⟨S1x2048x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x512x8, .f32⟩
  | .local _ .vmem, ⟨8, _⟩ => ⟨S1x512x8, .f32⟩
  | .local _ .vmem, ⟨9, _⟩ => ⟨S1x512x8, .f32⟩
  | .local _ .vmem, ⟨10, _⟩ => ⟨S1x512x8, .f32⟩
  | .local _ .vmem, ⟨11, _⟩ => ⟨S1x2048x512, .bf16⟩
  | .local _ .vmem, ⟨12, _⟩ => ⟨S1x2048x512, .bf16⟩
  | .local _ .vmem, ⟨13, _⟩ => ⟨S1x2048x4096, .bf16⟩
  | .local _ .vmem, ⟨14, _⟩ => ⟨S1x512x4096, .f32⟩
  | .local _ .vmem, ⟨15, _⟩ => ⟨S1x512x4096, .f32⟩
  | .local _ .vmem, ⟨16, _⟩ => ⟨S1x8x4096, .f32⟩
  | .local _ .vmem, ⟨17, _⟩ => ⟨S1x8x4096, .f32⟩
  | .local _ .vmem, ⟨18, _⟩ => ⟨S1x512x8, .f32⟩
  | .local _ .vmem, ⟨19, _⟩ => ⟨S1x512x8, .f32⟩
  | .local _ .vmem, ⟨20, _⟩ => ⟨S1x2048x512, .f32⟩
  | .local _ .vmem, ⟨21, _⟩ => ⟨S1x2048x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1x2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S16384x2048_S8x2048x2048 : S16384x2048.ShapeCasts S8x2048x2048
  slices_S8x8192x2048_S8x4096x2048_0_0_0 : S8x8192x2048.Slices ![0, 0, 0] S8x4096x2048
  slices_S8x8192x2048_S8x4096x2048_0_4096_0 : S8x8192x2048.Slices ![0, 4096, 0] S8x4096x2048
  slices_S8x8192x8_S8x4096x8_0_0_0 : S8x8192x8.Slices ![0, 0, 0] S8x4096x8
  slices_S8x8192x8_S8x4096x8_0_4096_0 : S8x8192x8.Slices ![0, 4096, 0] S8x4096x8
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x2048x2048_S16384x2048 : S8x2048x2048.ShapeCasts S16384x2048
  dot_S2048x2048_S512x2048_S2048x512_1_1_0_0_n_n_wf : DotDims.WF S2048x2048 S512x2048 S2048x512 [1] [1] [0] [0] [] []
  dot_S2048x2048_S8x2048_S2048x8_1_1_0_0_n_n_wf : DotDims.WF S2048x2048 S8x2048 S2048x8 [1] [1] [0] [0] [] []
  dot_S2048x8_S512x8_S2048x512_1_1_0_0_n_n_wf : DotDims.WF S2048x8 S512x8 S2048x512 [1] [1] [0] [0] [] []
  dot_S2048x4096_S512x4096_S2048x512_1_1_0_0_n_n_wf : DotDims.WF S2048x4096 S512x4096 S2048x512 [1] [1] [0] [0] [] []
  dot_S2048x4096_S8x4096_S2048x8_1_1_0_0_n_n_wf : DotDims.WF S2048x4096 S8x4096 S2048x8 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x4096x2048.size a
  hwx0_1 : ∀ i : grid0.Coords, EltTy.bits .f32 = 32 ∨ (Rect.block (s := S8x4096x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x4096x2048.size a
  hwx0_2 : ∀ i : grid0.Coords, EltTy.bits .f32 = 32 ∨ (Rect.block (s := S8x4096x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x2048.size a ≤ S8x8x2048.size a
  hwx0_3 : ∀ i : grid0.Coords, EltTy.bits .f32 = 32 ∨ (Rect.block (s := S8x8x2048) S1x8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x8.size a ≤ S8x4096x8.size a
  hwx0_4 : ∀ i : grid0.Coords, EltTy.bits .f32 = 32 ∨ (Rect.block (s := S8x4096x8) S1x512x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x8.size a ≤ S8x4096x8.size a
  hwx0_5 : ∀ i : grid0.Coords, EltTy.bits .f32 = 32 ∨ (Rect.block (s := S8x4096x8) S1x512x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x512.size a ≤ S8x2048x4096.size a
  hwx0_6 : ∀ i : grid0.Coords, EltTy.bits .bf16 = 32 ∨ (Rect.block (s := S8x2048x4096) S1x2048x512.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048x4096.size a ≤ S8x2048x4096.size a
  hwx1_0 : ∀ i : grid1.Coords, EltTy.bits .bf16 = 32 ∨ (Rect.block (s := S8x2048x4096) S1x2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x4096.size a ≤ S8x2048x4096.size a
  hwx1_1 : ∀ i : grid1.Coords, EltTy.bits .f32 = 32 ∨ (Rect.block (s := S8x2048x4096) S1x512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x4096.size a ≤ S8x8x4096.size a
  hwx1_2 : ∀ i : grid1.Coords, EltTy.bits .f32 = 32 ∨ (Rect.block (s := S8x8x4096) S1x8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x8.size a ≤ S8x2048x8.size a
  hwx1_3 : ∀ i : grid1.Coords, EltTy.bits .f32 = 32 ∨ (Rect.block (s := S8x2048x8) S1x512x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x512.size a ≤ S8x2048x2048.size a
  hwx1_4 : ∀ i : grid1.Coords, EltTy.bits .f32 = 32 ∨ (Rect.block (s := S8x2048x2048) S1x2048x512.size (cc1_transform_4 i) (hinb1_4 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf
def dot_S2048x2048_S8x2048_S2048x8_1_1_0_0_n_n : DotDims S2048x2048 S8x2048 S2048x8 where
  lhsContracting := [1]
  rhsContracting := [1]
  lhsNonContracting := [0]
  rhsNonContracting := [0]
  lhsBatch := []
  rhsBatch := []
  wf := dot_S2048x2048_S8x2048_S2048x8_1_1_0_0_n_n_wf
def dot_S2048x8_S512x8_S2048x512_1_1_0_0_n_n : DotDims S2048x8 S512x8 S2048x512 where
  lhsContracting := [1]
  rhsContracting := [1]
  lhsNonContracting := [0]
  rhsNonContracting := [0]
  lhsBatch := []
  rhsBatch := []
  wf := dot_S2048x8_S512x8_S2048x512_1_1_0_0_n_n_wf
def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf
def dot_S2048x4096_S8x4096_S2048x8_1_1_0_0_n_n : DotDims S2048x4096 S8x4096 S2048x8 where
  lhsContracting := [1]
  rhsContracting := [1]
  lhsNonContracting := [0]
  rhsNonContracting := [0]
  lhsBatch := []
  rhsBatch := []
  wf := dot_S2048x4096_S8x4096_S2048x8_1_1_0_0_n_n_wf

abbrev win0_0 : Pipeline.Window sig grid0 :=
  Pipeline.Window.ofSpec (Memref.whole main_v0) S1x2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x512x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S8x8192x2048 : Shape := ⟨3, ![8, 8192, 2048]⟩
abbrev S8x8x2048 : Shape := ⟨3, ![8, 8, 2048]⟩
abbrev S8x8192x8 : Shape := ⟨3, ![8, 8192, 8]⟩
abbrev S8x2048x4096 : Shape := ⟨3, ![8, 2048, 4096]⟩
abbrev S8x8x4096 : Shape := ⟨3, ![8, 8, 4096]⟩
abbrev S8x2048x8 : Shape := ⟨3, ![8, 2048, 8]⟩
abbrev S8x2048x2048 : Shape := ⟨3, ![8, 2048, 2048]⟩
abbrev S8x2048x8192 : Shape := ⟨3, ![8, 2048, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8x2048, .f32⟩
  | .hbm, ⟨3, _⟩ => ⟨S8x8192x8, .f32⟩
  | .hbm, ⟨4, _⟩ => ⟨S8x2048x4096, .f32⟩
  | .hbm, ⟨5, _⟩ => ⟨S8x8x4096, .f32⟩
  | .hbm, ⟨6, _⟩ => ⟨S8x2048x8, .f32⟩
  | .hbm, ⟨7, _⟩ => ⟨S8x2048x2048, .f32⟩
  | .hbm, ⟨8, _⟩ => ⟨S8x2048x8192, .f32⟩
  | .hbm, ⟨9, _⟩ => ⟨S8x2048x8, .f32⟩
  | .hbm, ⟨10, _⟩ => ⟨S8x2048x8192, .f32⟩
  | .hbm, ⟨11, _⟩ => ⟨S_, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S8x2048x2048, .f32⟩
  | .hbm, ⟨28, _⟩ => ⟨S8x2048x8, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x8192 : S_.BroadcastsInDim S8x2048x8192 (![] : Fin 0 → Fin S8x2048x8192.rank)
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  bcast_S_S8x2048x2048 : S_.BroadcastsInDim S8x2048x2048 (![] : Fin 0 → Fin S8x2048x2048.rank)
  shapeCasts_S8x2048x2048_S16384x2048 : S8x2048x2048.ShapeCasts S16384x2048
  dot_S8x2048x2048_S8x8192x2048_S8x2048x8192_2_2_1_1_0_0_wf : DotDims.WF S8x2048x2048 S8x8192x2048 S8x2048x8192 [2] [2] [1] [1] [0] [0]
  dot_S8x2048x2048_S8x8x2048_S8x2048x8_2_2_1_1_0_0_wf : DotDims.WF S8x2048x2048 S8x8x2048 S8x2048x8 [2] [2] [1] [1] [0] [0]
  dot_S8x2048x8_S8x8192x8_S8x2048x8192_2_2_1_1_0_0_wf : DotDims.WF S8x2048x8 S8x8192x8 S8x2048x8192 [2] [2] [1] [1] [0] [0]
  dot_S8x2048x4096_S8x2048x4096_S8x2048x2048_2_2_1_1_0_0_wf : DotDims.WF S8x2048x4096 S8x2048x4096 S8x2048x2048 [2] [2] [1] [1] [0] [0]
  dot_S8x2048x4096_S8x8x4096_S8x2048x8_2_2_1_1_0_0_wf : DotDims.WF S8x2048x4096 S8x8x4096 S8x2048x8 [2] [2] [1] [1] [0] [0]
  dot_S8x2048x8_S8x2048x8_S8x2048x2048_2_2_1_1_0_0_wf : DotDims.WF S8x2048x8 S8x2048x8 S8x2048x2048 [2] [2] [1] [1] [0] [0]

variable [Facts₀]

def dot_S8x2048x2048_S8x8192x2048_S8x2048x8192_2_2_1_1_0_0 : DotDims S8x2048x2048 S8x8192x2048 S8x2048x8192 where
  lhsContracting := [2]
  rhsContracting := [2]
  lhsNonContracting := [1]
  rhsNonContracting := [1]
  lhsBatch := [0]
  rhsBatch := [0]
  wf := dot_S8x2048x2048_S8x8192x2048_S8x2048x8192_2_2_1_1_0_0_wf
def dot_S8x2048x2048_S8x8x2048_S8x2048x8_2_2_1_1_0_0 : DotDims S8x2048x2048 S8x8x2048 S8x2048x8 where
  lhsContracting := [2]
  rhsContracting := [2]
  lhsNonContracting := [1]
  rhsNonContracting := [1]
  lhsBatch := [0]
  rhsBatch := [0]
  wf := dot_S8x2048x2048_S8x8x2048_S8x2048x8_2_2_1_1_0_0_wf
def dot_S8x2048x8_S8x8192x8_S8x2048x8192_2_2_1_1_0_0 : DotDims S8x2048x8 S8x8192x8 S8x2048x8192 where
  lhsContracting := [2]
  rhsContracting := [2]
  lhsNonContracting := [1]
  rhsNonContracting := [1]
  lhsBatch := [0]
  rhsBatch := [0]
  wf := dot_S8x2048x8_S8x8192x8_S8x2048x8192_2_2_1_1_0_0_wf
def dot_S8x2048x4096_S8x2048x4096_S8x2048x2048_2_2_1_1_0_0 : DotDims S8x2048x4096 S8x2048x4096 S8x2048x2048 where
  lhsContracting := [2]
  rhsContracting := [2]
  lhsNonContracting := [1]
  rhsNonContracting := [1]
  lhsBatch := [0]
  rhsBatch := [0]
  wf := dot_S8x2048x4096_S8x2048x4096_S8x2048x2048_2_2_1_1_0_0_wf
def dot_S8x2048x4096_S8x8x4096_S8x2048x8_2_2_1_1_0_0 : DotDims S8x2048x4096 S8x8x4096 S8x2048x8 where
  lhsContracting := [2]
  rhsContracting := [2]
  lhsNonContracting := [1]
  rhsNonContracting := [1]
  lhsBatch := [0]
  rhsBatch := [0]
  wf := dot_S8x2048x4096_S8x8x4096_S8x2048x8_2_2_1_1_0_0_wf
def dot_S8x2048x8_S8x2048x8_S8x2048x2048_2_2_1_1_0_0 : DotDims S8x2048x8 S8x2048x8 S8x2048x2048 where
  lhsContracting := [2]
  rhsContracting := [2]
  lhsNonContracting := [1]
  rhsNonContracting := [1]
  lhsBatch := [0]
  rhsBatch := [0]
  wf := dot_S8x2048x8_S8x2048x8_S8x2048x2048_2_2_1_1_0_0_wf

class Facts : Prop extends Facts₀ where

variable [Facts]
-- ==== Proof.Spec.lean ====
/-
  The mathematics both programs compute, stated once over plain index functions.

  A LoRA linear layer with rank 8 and scale 2 sends a token row `x` (length `I`) to, for each output feature with
  base-weight row `w`, adapter rows `a r` and up-projection coefficients `b r`,

      ⟨x, w⟩ + 2 · ∑ r, ⟨x, a r⟩ · b r.

  The expert block applies one such layer with fused gate/up outputs (features 0…4095 are the gate, 4096…8191 the
  up projection), combines them by SwiGLU, `up · (gate · σ(gate))` with σ the logistic function, and applies a second
  LoRA layer to the result. Everything is over the extended reals; sums are finite sums, and no law beyond the
  definitions is needed to compare the two programs, since both group every sum and product the same way.
-/
import Idealize.ShloMosaic.PureOps.Ideal
import Idealize.ShloMosaic.Lib.ValueIdx

noncomputable section

open scoped BigOperators

namespace Cert.LoraExperts

open Idealize.ShloMosaic Idealize.ShloMosaic.ValueIdx

/-- The LoRA scale `lora_alpha / r = 16 / 8`: the f32 word of `2.0`, which both programs spell. -/
abbrev scale : EReal := Ideal.ofBits .f32 0x40000000#32

/-- One output entry of a rank-8 LoRA linear layer: the base product `⟨x, w⟩` plus `scale` times the low-rank
    correction `∑ r, ⟨x, a r⟩ · b r`. -/
def loraEntry {I : Nat} (x w : Fin I → EReal) (a : Fin 8 → Fin I → EReal) (b : Fin 8 → EReal) : EReal :=
  (∑ k : Fin I, x k * w k) + scale * ∑ r : Fin 8, (∑ k : Fin I, x k * a r k) * b r

/-- SwiGLU of a gate and an up value: `up · (gate · σ(gate))`. -/
def swiglu (g u : EReal) : EReal := u * (g * Ideal.logistic g)

/-- The LoRA layer on stacked experts at entry `(e, t, o)`: inputs `X : [E, T, I]`, base weights `W : [E, O, I]`,
    adapters `A : [E, 8, I]` and `B : [E, O, 8]`. -/
def loraAt {E T I O : Nat} (X : (⟨3, ![E, T, I]⟩ : Shape).Idx → EReal) (W : (⟨3, ![E, O, I]⟩ : Shape).Idx → EReal)
    (A : (⟨3, ![E, 8, I]⟩ : Shape).Idx → EReal) (B : (⟨3, ![E, O, 8]⟩ : Shape).Idx → EReal)
    (e : Fin E) (t : Fin T) (o : Fin O) : EReal :=
  loraEntry (fun k => X (ix3 e t k)) (fun k => W (ix3 e o k)) (fun r k => A (ix3 e r k)) (fun r => B (ix3 e o r))

/-- Output features `0 … 4095` of a fused `[8, 8192, I]` array: the gate half. -/
def gateRows {I : Nat} (W : (⟨3, ![8, 8192, I]⟩ : Shape).Idx → EReal) : (⟨3, ![8, 4096, I]⟩ : Shape).Idx → EReal :=
  fun i => W (ix3 (i 0) (⟨(i 1).val, Nat.lt_trans (show (i 1).val < 4096 from (i 1).isLt) (by norm_num)⟩ : Fin 8192) (i 2))

/-- Output features `4096 … 8191` of a fused `[8, 8192, I]` array: the up half. -/
def upRows {I : Nat} (W : (⟨3, ![8, 8192, I]⟩ : Shape).Idx → EReal) : (⟨3, ![8, 4096, I]⟩ : Shape).Idx → EReal :=
  fun i => W (ix3 (i 0) (⟨4096 + (i 1).val, by have h : (i 1).val < 4096 := (i 1).isLt; omega⟩ : Fin 8192) (i 2))

/-- The hidden activations `[8, 2048, 4096]`: SwiGLU of the gate and up LoRA layers of the tokens. -/
def hidden (X : (⟨3, ![8, 2048, 2048]⟩ : Shape).Idx → EReal)
    (Wg Wu : (⟨3, ![8, 4096, 2048]⟩ : Shape).Idx → EReal) (A : (⟨3, ![8, 8, 2048]⟩ : Shape).Idx → EReal)
    (Bg Bu : (⟨3, ![8, 4096, 8]⟩ : Shape).Idx → EReal) : (⟨3, ![8, 2048, 4096]⟩ : Shape).Idx → EReal :=
  fun i => swiglu (loraAt X Wg A Bg (i 0) (i 1) (i 2)) (loraAt X Wu A Bu (i 0) (i 1) (i 2))

/-- The down projection `[8, 2048, 2048]`: the second LoRA layer of the hidden activations. -/
def projected (H : (⟨3, ![8, 2048, 4096]⟩ : Shape).Idx → EReal)
    (Wd : (⟨3, ![8, 2048, 4096]⟩ : Shape).Idx → EReal) (Ad : (⟨3, ![8, 8, 4096]⟩ : Shape).Idx → EReal)
    (Bd : (⟨3, ![8, 2048, 8]⟩ : Shape).Idx → EReal) : (⟨3, ![8, 2048, 2048]⟩ : Shape).Idx → EReal :=
  fun i => loraAt H Wd Ad Bd (i 0) (i 1) (i 2)

/-- The whole expert block on the tokens `X : [8, 2048, 2048]` and the seven parameter arrays as the programs take
    them (gate and up fused along the output axis). -/
def expertBlock (X : (⟨3, ![8, 2048, 2048]⟩ : Shape).Idx → EReal)
    (Wgu : (⟨3, ![8, 8192, 2048]⟩ : Shape).Idx → EReal) (Agu : (⟨3, ![8, 8, 2048]⟩ : Shape).Idx → EReal)
    (Bgu : (⟨3, ![8, 8192, 8]⟩ : Shape).Idx → EReal) (Wd : (⟨3, ![8, 2048, 4096]⟩ : Shape).Idx → EReal)
    (Ad : (⟨3, ![8, 8, 4096]⟩ : Shape).Idx → EReal) (Bd : (⟨3, ![8, 2048, 8]⟩ : Shape).Idx → EReal) :
    (⟨3, ![8, 2048, 2048]⟩ : Shape).Idx → EReal :=
  projected (hidden X (gateRows Wgu) (upRows Wgu) Agu (gateRows Bgu) (upRows Bgu)) Wd Ad Bd

end Cert.LoraExperts

end
-- ==== Proof.KHost.lean ====
/-
  The host operations around the two launches, read as values. Before the first launch the token array is regrouped
  as 8 experts × 2048 tokens and the fused gate/up parameters are sliced along the output axis into their gate rows
  (features 0 … 4095) and up rows (features 4096 … 8191); nothing touches the other arguments. The first launch writes
  only the hidden activations, the second only its output, and the last host operation regroups that output as
  `[16384, 2048]`.
-/
import proofs.«167695_j86242943303913_1_alg».proof.Proof.Gen.KernelIdeal.Frame
import proofs.«167695_j86242943303913_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.HostValue

open Cert.KernelIdeal Cert.KernelIdeal.Gen Cert.LoraExperts
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A slice of the fused output axis starting at feature 0 is the gate rows. -/
theorem slice_lo_eq {I : Nat} (x : (⟨3, ![8, 8192, I]⟩ : Shape).Idx → EReal)
    (h : (⟨3, ![8, 8192, I]⟩ : Shape).Slices ![0, 0, 0] ⟨3, ![8, 4096, I]⟩) :
    extractStridedSlice ⟨3, ![8, 4096, I]⟩ ![0, 0, 0] x h = gateRows x := by
  funext j
  unfold gateRows
  refine extractStridedSlice_apply _ x h j _ fun a => ?_
  match a with
  | ⟨0, _⟩ => show (j 0).val = 0 + (j 0).val; omega
  | ⟨1, _⟩ => show (j 1).val = 0 + (j 1).val; omega
  | ⟨2, _⟩ => show (j 2).val = 0 + (j 2).val; omega

/-- A slice of the fused output axis starting at feature 4096 is the up rows. -/
theorem slice_hi_eq {I : Nat} (x : (⟨3, ![8, 8192, I]⟩ : Shape).Idx → EReal)
    (h : (⟨3, ![8, 8192, I]⟩ : Shape).Slices ![0, 4096, 0] ⟨3, ![8, 4096, I]⟩) :
    extractStridedSlice ⟨3, ![8, 4096, I]⟩ ![0, 4096, 0] x h = upRows x := by
  funext j
  unfold upRows
  refine extractStridedSlice_apply _ x h j _ fun a => ?_
  match a with
  | ⟨0, _⟩ => show (j 0).val = 0 + (j 0).val; omega
  | ⟨1, _⟩ => show 4096 + (j 1).val = 4096 + (j 1).val; rfl
  | ⟨2, _⟩ => show (j 2).val = 0 + (j 2).val; omega

/-! ## The first launch's arrays as it finds them -/

/-- The tokens regrouped by expert. -/
theorem entry_tokens (c : Dev nD) :
    V1 m ρ c main_v0 = shapeCast S8x2048x2048 (m ((c : Thread nD τ).loc main_arg0)) shapeCasts_S16384x2048_S8x2048x2048 := by
  show StableHlo.after hostOps0 (W0 m ρ c) (Proc.devRef .tc main_v0) = _
  after_results <;> rfl

theorem entry_gate_weights (c : Dev nD) : V1 m ρ c main_v1 = gateRows (m ((c : Thread nD τ).loc main_arg1)) := by
  refine Eq.trans ?_ (slice_lo_eq (m ((c : Thread nD τ).loc main_arg1)) slices_S8x8192x2048_S8x4096x2048_0_0_0)
  show StableHlo.after hostOps0 (W0 m ρ c) (Proc.devRef .tc main_v1) = _
  after_results <;> rfl

theorem entry_up_weights (c : Dev nD) : V1 m ρ c main_v2 = upRows (m ((c : Thread nD τ).loc main_arg1)) := by
  refine Eq.trans ?_ (slice_hi_eq (m ((c : Thread nD τ).loc main_arg1)) slices_S8x8192x2048_S8x4096x2048_0_4096_0)
  show StableHlo.after hostOps0 (W0 m ρ c) (Proc.devRef .tc main_v2) = _
  after_results <;> rfl

theorem entry_gate_coeffs (c : Dev nD) : V1 m ρ c main_v3 = gateRows (m ((c : Thread nD τ).loc main_arg3)) := by
  refine Eq.trans ?_ (slice_lo_eq (m ((c : Thread nD τ).loc main_arg3)) slices_S8x8192x8_S8x4096x8_0_0_0)
  show StableHlo.after hostOps0 (W0 m ρ c) (Proc.devRef .tc main_v3) = _
  after_results <;> rfl

theorem entry_up_coeffs (c : Dev nD) : V1 m ρ c main_v4 = upRows (m ((c : Thread nD τ).loc main_arg3)) := by
  refine Eq.trans ?_ (slice_hi_eq (m ((c : Thread nD τ).loc main_arg3)) slices_S8x8192x8_S8x4096x8_0_4096_0)
  show StableHlo.after hostOps0 (W0 m ρ c) (Proc.devRef .tc main_v4) = _
  after_results <;> rfl

theorem entry_adapters (c : Dev nD) : V1 m ρ c main_arg2 = m ((c : Thread nD τ).loc main_arg2) := by
  show StableHlo.after hostOps0 (W0 m ρ c) (Proc.devRef .tc main_arg2) = _
  after_results <;> rfl

theorem entry_down_weights (c : Dev nD) : V1 m ρ c main_arg4 = m ((c : Thread nD τ).loc main_arg4) := by
  show StableHlo.after hostOps0 (W0 m ρ c) (Proc.devRef .tc main_arg4) = _
  after_results <;> rfl

theorem entry_down_adapters (c : Dev nD) : V1 m ρ c main_arg5 = m ((c : Thread nD τ).loc main_arg5) := by
  show StableHlo.after hostOps0 (W0 m ρ c) (Proc.devRef .tc main_arg5) = _
  after_results <;> rfl

theorem entry_down_coeffs (c : Dev nD) : V1 m ρ c main_arg6 = m ((c : Thread nD τ).loc main_arg6) := by
  show StableHlo.after hostOps0 (W0 m ρ c) (Proc.devRef .tc main_arg6) = _
  after_results <;> rfl

/-! ## The second launch's arrays as it finds them -/

/-- The hidden activations are what the first launch's write-backs leave. -/
theorem mid_hidden (c : Dev nD) : V2 m ρ c main_v5 = (dat0 (V1 m ρ) c).arrAt 6 cfg0.N := W2_arr m ρ c 6

theorem mid_down_weights (c : Dev nD) : V2 m ρ c main_arg4 = m ((c : Thread nD τ).loc main_arg4) :=
  (W2_of_ne m ρ c main_arg4 (by decide)).trans (entry_down_weights m ρ c)

theorem mid_down_adapters (c : Dev nD) : V2 m ρ c main_arg5 = m ((c : Thread nD τ).loc main_arg5) :=
  (W2_of_ne m ρ c main_arg5 (by decide)).trans (entry_down_adapters m ρ c)

theorem mid_down_coeffs (c : Dev nD) : V2 m ρ c main_arg6 = m ((c : Thread nD τ).loc main_arg6) :=
  (W2_of_ne m ρ c main_arg6 (by decide)).trans (entry_down_coeffs m ρ c)

/-! ## The result -/

/-- The second launch's output is what its write-backs leave. -/
theorem exit_output (c : Dev nD) : V3 m ρ c main_v6 = (dat1 (V2 m ρ) c).arrAt 4 cfg1.N := W3_arr m ρ c 4

/-- The result buffer is the second launch's output regrouped. -/
theorem result_regrouped (c : Dev nD) :
    W4 m ρ c (Proc.devRef .tc main_v7) = shapeCast S16384x2048 (V3 m ρ c main_v6) shapeCasts_S8x2048x2048_S16384x2048 := by
  show StableHlo.after hostOps2 (W3 m ρ c) (Proc.devRef .tc main_v7) = _
  after_results <;> rfl

end Cert.KernelIdeal.HostValue

end
-- ==== Proof.PayGateUp.lean ====
/-
  One entry of what a gate/up grid step stores: at row `t` and feature `j` of the step's `[1, 2048, 512]` block the body's
  value is SwiGLU of two LoRA entries, the gate's and the up projection's, both of the token row `t` of the step's
  token block against feature row `j` of the step's weight and adapter blocks.
-/
import proofs.«167695_j86242943303913_1_alg».proof.Proof.Gen.KernelIdeal.Skeleton
import proofs.«167695_j86242943303913_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.LoraExperts Idealize.ShloMosaic Idealize.ShloMosaic.ValueIdx

/-! ### The token block against a weight block: rows `[2048, 2048]` times rows `[512, 2048]`, contracted along axis 1 of both -/

theorem gu_lhs_w_0 (i : S2048x512.Idx) (q : dot_S2048x2048_S512x2048_S2048x512_1_1_0_0_n_n.contr.Idx) :
    (dot_S2048x2048_S512x2048_S2048x512_1_1_0_0_n_n.lhsIdx i q 0).val = (i 0).val := by
  unfold DotDims.lhsIdx
  rw [dif_neg (show ¬(0 : Fin S2048x2048.rank) ∈ dot_S2048x2048_S512x2048_S2048x512_1_1_0_0_n_n.lhsBatch by decide), dif_pos (show (0 : Fin S2048x2048.rank) ∈ dot_S2048x2048_S512x2048_S2048x512_1_1_0_0_n_n.lhsNonContracting by decide)]
  rfl
theorem gu_lhs_w_1 (i : S2048x512.Idx) (q : dot_S2048x2048_S512x2048_S2048x512_1_1_0_0_n_n.contr.Idx) :
    (dot_S2048x2048_S512x2048_S2048x512_1_1_0_0_n_n.lhsIdx i q 1).val = (q ⟨0, by decide⟩).val :=
  dot_S2048x2048_S512x2048_S2048x512_1_1_0_0_n_n.lhsIdx_val_of_single rfl i q
theorem gu_rhs_w_0 (i : S2048x512.Idx) (q : dot_S2048x2048_S512x2048_S2048x512_1_1_0_0_n_n.contr.Idx) :
    (dot_S2048x2048_S512x2048_S2048x512_1_1_0_0_n_n.rhsIdx i q 0).val = (i 1).val := by
  unfold DotDims.rhsIdx
  rw [dif_neg (show ¬(0 : Fin S512x2048.rank) ∈ dot_S2048x2048_S512x2048_S2048x512_1_1_0_0_n_n.rhsBatch by decide), dif_pos (show (0 : Fin S512x2048.rank) ∈ dot_S2048x2048_S512x2048_S2048x512_1_1_0_0_n_n.rhsNonContracting by decide)]
  rfl
theorem gu_rhs_w_1 (i : S2048x512.Idx) (q : dot_S2048x2048_S512x2048_S2048x512_1_1_0_0_n_n.contr.Idx) :
    (dot_S2048x2048_S512x2048_S2048x512_1_1_0_0_n_n.rhsIdx i q 1).val = (q ⟨0, by decide⟩).val :=
  dot_S2048x2048_S512x2048_S2048x512_1_1_0_0_n_n.rhsIdx_val_of_single rfl i q

/-- Into the zero accumulator the product reads, at `(t, j)`, the sum over `k` of row `t` of the left operand times row
    `j` of the right one. -/
theorem gu_matmul_w {φ₁ φ₂ : FTy} (l : FVec Ideal S2048x2048 φ₁) (r : FVec Ideal S512x2048 φ₂) (t : Fin 2048) (j : Fin 512) :
    matmul (F := Ideal) dot_S2048x2048_S512x2048_S2048x512_1_1_0_0_n_n none l r (constant (F := Ideal) S2048x512 .f32 0x00000000#32) (ix2 t j)
      = ∑ k : Fin 2048, l (ix2 t k) * r (ix2 j k) := by
  show FloatOps.matmul dot_S2048x2048_S512x2048_S2048x512_1_1_0_0_n_n none l r (constant (F := Ideal) S2048x512 .f32 0x00000000#32) (ix2 t j) = _
  rw [Ideal.matmul_constant_zero_apply, ← Equiv.sum_comp (contrEquiv1 dot_S2048x2048_S512x2048_S2048x512_1_1_0_0_n_n 2048 rfl rfl).symm]
  refine Finset.sum_congr rfl fun k _ => ?_
  have hk := contrEquiv1_symm_val dot_S2048x2048_S512x2048_S2048x512_1_1_0_0_n_n 2048 rfl rfl k
  have el : dot_S2048x2048_S512x2048_S2048x512_1_1_0_0_n_n.lhsIdx (ix2 t j) ((contrEquiv1 dot_S2048x2048_S512x2048_S2048x512_1_1_0_0_n_n 2048 rfl rfl).symm k) = ix2 t k := funext fun a => Fin.ext (by
    match a with
    | ⟨0, _⟩ => exact gu_lhs_w_0 _ _
    | ⟨1, _⟩ => exact (gu_lhs_w_1 _ _).trans hk)
  have er : dot_S2048x2048_S512x2048_S2048x512_1_1_0_0_n_n.rhsIdx (ix2 t j) ((contrEquiv1 dot_S2048x2048_S512x2048_S2048x512_1_1_0_0_n_n 2048 rfl rfl).symm k) = ix2 j k := funext fun a => Fin.ext (by
    match a with
    | ⟨0, _⟩ => exact gu_rhs_w_0 _ _
    | ⟨1, _⟩ => exact (gu_rhs_w_1 _ _).trans hk)
  rw [el, er]

/-! ### The token block against the adapter block: rows `[2048, 2048]` times rows `[8, 2048]`, contracted along axis 1 of both -/

theorem gu_lhs_a_0 (i : S2048x8.Idx) (q : dot_S2048x2048_S8x2048_S2048x8_1_1_0_0_n_n.contr.Idx) :
    (dot_S2048x2048_S8x2048_S2048x8_1_1_0_0_n_n.lhsIdx i q 0).val = (i 0).val := by
  unfold DotDims.lhsIdx
  rw [dif_neg (show ¬(0 : Fin S2048x2048.rank) ∈ dot_S2048x2048_S8x2048_S2048x8_1_1_0_0_n_n.lhsBatch by decide), dif_pos (show (0 : Fin S2048x2048.rank) ∈ dot_S2048x2048_S8x2048_S2048x8_1_1_0_0_n_n.lhsNonContracting by decide)]
  rfl
theorem gu_lhs_a_1 (i : S2048x8.Idx) (q : dot_S2048x2048_S8x2048_S2048x8_1_1_0_0_n_n.contr.Idx) :
    (dot_S2048x2048_S8x2048_S2048x8_1_1_0_0_n_n.lhsIdx i q 1).val = (q ⟨0, by decide⟩).val :=
  dot_S2048x2048_S8x2048_S2048x8_1_1_0_0_n_n.lhsIdx_val_of_single rfl i q
theorem gu_rhs_a_0 (i : S2048x8.Idx) (q : dot_S2048x2048_S8x2048_S2048x8_1_1_0_0_n_n.contr.Idx) :
    (dot_S2048x2048_S8x2048_S2048x8_1_1_0_0_n_n.rhsIdx i q 0).val = (i 1).val := by
  unfold DotDims.rhsIdx
  rw [dif_neg (show ¬(0 : Fin S8x2048.rank) ∈ dot_S2048x2048_S8x2048_S2048x8_1_1_0_0_n_n.rhsBatch by decide), dif_pos (show (0 : Fin S8x2048.rank) ∈ dot_S2048x2048_S8x2048_S2048x8_1_1_0_0_n_n.rhsNonContracting by decide)]
  rfl
theorem gu_rhs_a_1 (i : S2048x8.Idx) (q : dot_S2048x2048_S8x2048_S2048x8_1_1_0_0_n_n.contr.Idx) :
    (dot_S2048x2048_S8x2048_S2048x8_1_1_0_0_n_n.rhsIdx i q 1).val = (q ⟨0, by decide⟩).val :=
  dot_S2048x2048_S8x2048_S2048x8_1_1_0_0_n_n.rhsIdx_val_of_single rfl i q

/-- Into the zero accumulator the product reads, at `(t, j)`, the sum over `k` of row `t` of the left operand times row
    `j` of the right one. -/
theorem gu_matmul_a {φ₁ φ₂ : FTy} (l : FVec Ideal S2048x2048 φ₁) (r : FVec Ideal S8x2048 φ₂) (t : Fin 2048) (j : Fin 8) :
    matmul (F := Ideal) dot_S2048x2048_S8x2048_S2048x8_1_1_0_0_n_n none l r (constant (F := Ideal) S2048x8 .f32 0x00000000#32) (ix2 t j)
      = ∑ k : Fin 2048, l (ix2 t k) * r (ix2 j k) := by
  show FloatOps.matmul dot_S2048x2048_S8x2048_S2048x8_1_1_0_0_n_n none l r (constant (F := Ideal) S2048x8 .f32 0x00000000#32) (ix2 t j) = _
  rw [Ideal.matmul_constant_zero_apply, ← Equiv.sum_comp (contrEquiv1 dot_S2048x2048_S8x2048_S2048x8_1_1_0_0_n_n 2048 rfl rfl).symm]
  refine Finset.sum_congr rfl fun k _ => ?_
  have hk := contrEquiv1_symm_val dot_S2048x2048_S8x2048_S2048x8_1_1_0_0_n_n 2048 rfl rfl k
  have el : dot_S2048x2048_S8x2048_S2048x8_1_1_0_0_n_n.lhsIdx (ix2 t j) ((contrEquiv1 dot_S2048x2048_S8x2048_S2048x8_1_1_0_0_n_n 2048 rfl rfl).symm k) = ix2 t k := funext fun a => Fin.ext (by
    match a with
    | ⟨0, _⟩ => exact gu_lhs_a_0 _ _
    | ⟨1, _⟩ => exact (gu_lhs_a_1 _ _).trans hk)
  have er : dot_S2048x2048_S8x2048_S2048x8_1_1_0_0_n_n.rhsIdx (ix2 t j) ((contrEquiv1 dot_S2048x2048_S8x2048_S2048x8_1_1_0_0_n_n 2048 rfl rfl).symm k) = ix2 j k := funext fun a => Fin.ext (by
    match a with
    | ⟨0, _⟩ => exact gu_rhs_a_0 _ _
    | ⟨1, _⟩ => exact (gu_rhs_a_1 _ _).trans hk)
  rw [el, er]

/-! ### The rank-8 projections against a block of up-projection coefficients: rows `[2048, 8]` times rows `[512, 8]`, contracted along axis 1 of both -/

theorem gu_lhs_b_0 (i : S2048x512.Idx) (q : dot_S2048x8_S512x8_S2048x512_1_1_0_0_n_n.contr.Idx) :
    (dot_S2048x8_S512x8_S2048x512_1_1_0_0_n_n.lhsIdx i q 0).val = (i 0).val := by
  unfold DotDims.lhsIdx
  rw [dif_neg (show ¬(0 : Fin S2048x8.rank) ∈ dot_S2048x8_S512x8_S2048x512_1_1_0_0_n_n.lhsBatch by decide), dif_pos (show (0 : Fin S2048x8.rank) ∈ dot_S2048x8_S512x8_S2048x512_1_1_0_0_n_n.lhsNonContracting by decide)]
  rfl
theorem gu_lhs_b_1 (i : S2048x512.Idx) (q : dot_S2048x8_S512x8_S2048x512_1_1_0_0_n_n.contr.Idx) :
    (dot_S2048x8_S512x8_S2048x512_1_1_0_0_n_n.lhsIdx i q 1).val = (q ⟨0, by decide⟩).val :=
  dot_S2048x8_S512x8_S2048x512_1_1_0_0_n_n.lhsIdx_val_of_single rfl i q
theorem gu_rhs_b_0 (i : S2048x512.Idx) (q : dot_S2048x8_S512x8_S2048x512_1_1_0_0_n_n.contr.Idx) :
    (dot_S2048x8_S512x8_S2048x512_1_1_0_0_n_n.rhsIdx i q 0).val = (i 1).val := by
  unfold DotDims.rhsIdx
  rw [dif_neg (show ¬(0 : Fin S512x8.rank) ∈ dot_S2048x8_S512x8_S2048x512_1_1_0_0_n_n.rhsBatch by decide), dif_pos (show (0 : Fin S512x8.rank) ∈ dot_S2048x8_S512x8_S2048x512_1_1_0_0_n_n.rhsNonContracting by decide)]
  rfl
theorem gu_rhs_b_1 (i : S2048x512.Idx) (q : dot_S2048x8_S512x8_S2048x512_1_1_0_0_n_n.contr.Idx) :
    (dot_S2048x8_S512x8_S2048x512_1_1_0_0_n_n.rhsIdx i q 1).val = (q ⟨0, by decide⟩).val :=
  dot_S2048x8_S512x8_S2048x512_1_1_0_0_n_n.rhsIdx_val_of_single rfl i q

/-- Into the zero accumulator the product reads, at `(t, j)`, the sum over `k` of row `t` of the left operand times row
    `j` of the right one. -/
theorem gu_matmul_b {φ₁ φ₂ : FTy} (l : FVec Ideal S2048x8 φ₁) (r : FVec Ideal S512x8 φ₂) (t : Fin 2048) (j : Fin 512) :
    matmul (F := Ideal) dot_S2048x8_S512x8_S2048x512_1_1_0_0_n_n none l r (constant (F := Ideal) S2048x512 .f32 0x00000000#32) (ix2 t j)
      = ∑ k : Fin 8, l (ix2 t k) * r (ix2 j k) := by
  show FloatOps.matmul dot_S2048x8_S512x8_S2048x512_1_1_0_0_n_n none l r (constant (F := Ideal) S2048x512 .f32 0x00000000#32) (ix2 t j) = _
  rw [Ideal.matmul_constant_zero_apply, ← Equiv.sum_comp (contrEquiv1 dot_S2048x8_S512x8_S2048x512_1_1_0_0_n_n 8 rfl rfl).symm]
  refine Finset.sum_congr rfl fun k _ => ?_
  have hk := contrEquiv1_symm_val dot_S2048x8_S512x8_S2048x512_1_1_0_0_n_n 8 rfl rfl k
  have el : dot_S2048x8_S512x8_S2048x512_1_1_0_0_n_n.lhsIdx (ix2 t j) ((contrEquiv1 dot_S2048x8_S512x8_S2048x512_1_1_0_0_n_n 8 rfl rfl).symm k) = ix2 t k := funext fun a => Fin.ext (by
    match a with
    | ⟨0, _⟩ => exact gu_lhs_b_0 _ _
    | ⟨1, _⟩ => exact (gu_lhs_b_1 _ _).trans hk)
  have er : dot_S2048x8_S512x8_S2048x512_1_1_0_0_n_n.rhsIdx (ix2 t j) ((contrEquiv1 dot_S2048x8_S512x8_S2048x512_1_1_0_0_n_n 8 rfl rfl).symm k) = ix2 j k := funext fun a => Fin.ext (by
    match a with
    | ⟨0, _⟩ => exact gu_rhs_b_0 _ _
    | ⟨1, _⟩ => exact (gu_rhs_b_1 _ _).trans hk)
  rw [el, er]

/-! ### The pointwise operations, and one LoRA entry of the body -/

/-- The logistic function of a vector reads, at an index, the logistic function of the element. -/
theorem gu_logistic_apply {s : Shape} {φ : FTy} (a : FVec Ideal s φ) (i : s.Idx) :
    logistic (F := Ideal) a i = Ideal.logistic (a i) := rfl

/-- A token row read through the body's cast and format change. -/
theorem gu_tok_apply (x0 : Vec Ideal S1x2048x2048 .f32) (t k : Fin 2048) :
    (truncf .bf16 (shapeCast S2048x2048 x0 shapeCasts_S1x2048x2048_S2048x2048) bitsLt_bf16_f32 : FVec Ideal S2048x2048 .bf16) (ix2 t k)
      = x0 (ix3 (0 : Fin 1) t k) :=
  shapeCast_1ab_ab_apply x0 shapeCasts_S1x2048x2048_S2048x2048 t k

/-- A weight row likewise. -/
theorem gu_wgt_apply (w : Vec Ideal S1x512x2048 .f32) (j : Fin 512) (k : Fin 2048) :
    (truncf .bf16 (shapeCast S512x2048 w shapeCasts_S1x512x2048_S512x2048) bitsLt_bf16_f32 : FVec Ideal S512x2048 .bf16) (ix2 j k)
      = w (ix3 (0 : Fin 1) j k) :=
  shapeCast_1ab_ab_apply w shapeCasts_S1x512x2048_S512x2048 j k

/-- An adapter row likewise. -/
theorem gu_adp_apply (a : Vec Ideal S1x8x2048 .f32) (r : Fin 8) (k : Fin 2048) :
    (truncf .bf16 (shapeCast S8x2048 a shapeCasts_S1x8x2048_S8x2048) bitsLt_bf16_f32 : FVec Ideal S8x2048 .bf16) (ix2 r k)
      = a (ix3 (0 : Fin 1) r k) :=
  shapeCast_1ab_ab_apply a shapeCasts_S1x8x2048_S8x2048 r k

/-- A row of up-projection coefficients likewise. -/
theorem gu_cof_apply (b : Vec Ideal S1x512x8 .f32) (j : Fin 512) (r : Fin 8) :
    (truncf .bf16 (shapeCast S512x8 b shapeCasts_S1x512x8_S512x8) bitsLt_bf16_f32 : FVec Ideal S512x8 .bf16) (ix2 j r)
      = b (ix3 (0 : Fin 1) j r) :=
  shapeCast_1ab_ab_apply b shapeCasts_S1x512x8_S512x8 j r

/-- The body's base product plus twice its low-rank correction, read at `(t, j)`, is the LoRA entry of token row `t`
    against feature row `j`: the sums are grouped as the definition groups them. -/
theorem gu_lora_apply (x0 : Vec Ideal S1x2048x2048 .f32) (w : Vec Ideal S1x512x2048 .f32)
    (a : Vec Ideal S1x8x2048 .f32) (b : Vec Ideal S1x512x8 .f32) (t : Fin 2048) (j : Fin 512) :
    addf (F := Ideal)
      (matmul dot_S2048x2048_S512x2048_S2048x512_1_1_0_0_n_n none
        (truncf .bf16 (shapeCast S2048x2048 x0 shapeCasts_S1x2048x2048_S2048x2048) bitsLt_bf16_f32)
        (truncf .bf16 (shapeCast S512x2048 w shapeCasts_S1x512x2048_S512x2048) bitsLt_bf16_f32)
        (constant S2048x512 .f32 0x00000000#32))
      (mulf (broadcast S2048x512 (Scalar.ofBits .f32 0x40000000#32))
        (matmul dot_S2048x8_S512x8_S2048x512_1_1_0_0_n_n none
          (truncf .bf16
            (matmul dot_S2048x2048_S8x2048_S2048x8_1_1_0_0_n_n none
              (truncf .bf16 (shapeCast S2048x2048 x0 shapeCasts_S1x2048x2048_S2048x2048) bitsLt_bf16_f32)
              (truncf .bf16 (shapeCast S8x2048 a shapeCasts_S1x8x2048_S8x2048) bitsLt_bf16_f32)
              (constant S2048x8 .f32 0x00000000#32))
            bitsLt_bf16_f32)
          (truncf .bf16 (shapeCast S512x8 b shapeCasts_S1x512x8_S512x8) bitsLt_bf16_f32)
          (constant S2048x512 .f32 0x00000000#32)))
      (ix2 t j)
      = loraEntry (fun k => x0 (ix3 (0 : Fin 1) t k)) (fun k => w (ix3 (0 : Fin 1) j k))
          (fun r k => a (ix3 (0 : Fin 1) r k)) (fun r => b (ix3 (0 : Fin 1) j r)) := by
  unfold loraEntry
  rw [addf_apply, mulf_apply, broadcast_apply, gu_matmul_w, gu_matmul_b]
  refine congrArg₂ (fun p q : EReal => p + scale * q) ?_ ?_
  · exact Finset.sum_congr rfl fun k _ => by rw [gu_tok_apply, gu_wgt_apply]
  · refine Finset.sum_congr rfl fun r _ => ?_
    rw [truncf_apply, gu_matmul_a, gu_cof_apply]
    exact congrArg (· * b (ix3 (0 : Fin 1) j r)) (Finset.sum_congr rfl fun k _ => by rw [gu_tok_apply, gu_adp_apply])

/-! ### The stored value -/

theorem gateup_payload_apply (x0 : Vec Ideal S1x2048x2048 .f32) (x1 x2 : Vec Ideal S1x512x2048 .f32)
    (x3 : Vec Ideal S1x8x2048 .f32) (x4 x5 : Vec Ideal S1x512x8 .f32) (t : Fin 2048) (j : Fin 512) :
    k0_pay1 (F := Ideal) (k0_pay2 x0 x1 x2 x3 x4 x5) (ix3 (0 : Fin 1) t j) =
      swiglu
        (loraEntry (fun k => x0 (ix3 (0 : Fin 1) t k)) (fun k => x1 (ix3 (0 : Fin 1) j k))
          (fun r k => x3 (ix3 (0 : Fin 1) r k)) (fun r => x4 (ix3 (0 : Fin 1) j r)))
        (loraEntry (fun k => x0 (ix3 (0 : Fin 1) t k)) (fun k => x2 (ix3 (0 : Fin 1) j k))
          (fun r k => x3 (ix3 (0 : Fin 1) r k)) (fun r => x5 (ix3 (0 : Fin 1) j r))) := by
  unfold k0_pay1 k0_pay2
  refine (shapeCast_ab_1ab_apply _ _ (0 : Fin 1) t j).trans ?_
  simp only [truncf_apply, mulf_apply, gu_logistic_apply]
  rw [gu_lora_apply x0 x1 x3 x4 t j, gu_lora_apply x0 x2 x3 x5 t j]
  rfl

end Cert.KernelIdeal.BodyValue

end
-- ==== Proof.RegionGateUp.lean ====
/-
  The gate/up launch as a whole: its 8 × 8 grid steps each write one `[1, 2048, 512]` block of the hidden activations,
  the blocks tile the `[8, 2048, 4096]` array, and entry `(e, t, d)` of the array the launch leaves is SwiGLU of the gate
  and up LoRA entries of token row `(e, t)` against feature `d` of expert `e`'s split weights, as the launch finds them.
-/
import proofs.«167695_j86242943303913_1_alg».proof.Proof.Gen.KernelIdeal.Frame
import proofs.«167695_j86242943303913_1_alg».proof.Proof.PayGateUp
import proofs.«167695_j86242943303913_1_alg».proof.Proof.Spec
import Idealize.ShloMosaic.Lib.ValueIdx
import Idealize.ShloMosaic.Lib.Pipeline.Value

set_option maxRecDepth 16384

noncomputable section

open scoped BigOperators

namespace Cert.KernelIdeal.RegionValue

open Cert.KernelIdeal Cert.KernelIdeal.Gen Cert.KernelIdeal.BodyValue Cert.LoraExperts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however they are spelt. -/
theorem gateup_origin : (![0, 0, 0] : Fin 3 → Nat) = fun _ => 0 := funext fun a => by fin_cases a <;> rfl

/-- Where each window's block sits at a grid step `(e, d)`, decided over the 64 steps: tokens and adapters at block
    `(e, 0, 0)`, the split weights and coefficients at `(e, d, 0)`, the hidden activations at `(e, 0, d)`. -/
theorem gateup_block_indices : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = win0_6.index t (2 : Fin 3) ∧ win0_1.index t (2 : Fin 3) = 0
    ∧ win0_2.index t (0 : Fin 3) = win0_6.index t (0 : Fin 3) ∧ win0_2.index t (1 : Fin 3) = win0_6.index t (2 : Fin 3) ∧ win0_2.index t (2 : Fin 3) = 0
    ∧ win0_3.index t (0 : Fin 3) = win0_6.index t (0 : Fin 3) ∧ win0_3.index t (1 : Fin 3) = 0 ∧ win0_3.index t (2 : Fin 3) = 0
    ∧ win0_4.index t (0 : Fin 3) = win0_6.index t (0 : Fin 3) ∧ win0_4.index t (1 : Fin 3) = win0_6.index t (2 : Fin 3) ∧ win0_4.index t (2 : Fin 3) = 0
    ∧ win0_5.index t (0 : Fin 3) = win0_6.index t (0 : Fin 3) ∧ win0_5.index t (1 : Fin 3) = win0_6.index t (2 : Fin 3) ∧ win0_5.index t (2 : Fin 3) = 0
    ∧ win0_6.index t (0 : Fin 3) ≤ 7 ∧ win0_6.index t (1 : Fin 3) = 0 ∧ win0_6.index t (2 : Fin 3) ≤ 7 :=
  (by decide +kernel : ∀ t : Fin grid0.N, _)

/-- Every block `(e, 0, d)` of the hidden activations is some grid step's. -/
theorem gateup_block_onto : ∀ (q0 : Fin 8) (q2 : Fin 8), ∃ t : Fin cfg0.N, win0_6.index t = ![q0.val, 0, q2.val] :=
  (by decide +kernel : ∀ (q0 : Fin 8) (q2 : Fin 8), ∃ t : Fin grid0.N, win0_6.index t = ![q0.val, 0, q2.val])

/-- An entry of the hidden activations is in a step's block iff each coordinate is in the block's range on its axis. -/
theorem gateup_mem_block (t : Fin cfg0.N) (i : S8x2048x4096.Idx) :
    i ∈ ((cfg0.win 6).blk t).view.set ↔ ∀ a : Fin 3, win0_6.index t a * S1x2048x512.size a ≤ (i a).val ∧ (i a).val < win0_6.index t a * S1x2048x512.size a + S1x2048x512.size a := by
  show i ∈ ((View.whole main_v5).slice (win0_6.rect t)).set ↔ _
  rw [View.set_slice_whole, Rect.mem_set_unit]
  exact Iff.rfl

/-- The 64 blocks tile the array: entry `(e, r, o)` is in the block of the step at expert `e`, feature tile `o / 512`. -/
theorem gateup_cover (i : S8x2048x4096.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 4096 := (i 2).isLt
  obtain ⟨t, ht⟩ := gateup_block_onto ⟨(i 0).val, hi0⟩ ⟨(i 2).val / 512, by omega⟩
  have q0 : win0_6.index t (0 : Fin 3) = (i 0).val := congrFun ht 0
  have q1 : win0_6.index t (1 : Fin 3) = 0 := congrFun ht 1
  have q2 : win0_6.index t (2 : Fin 3) = (i 2).val / 512 := congrFun ht 2
  refine ⟨t, flush0_6 t, ?_⟩
  rw [gateup_mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 512 ≤ (i 2).val ∧ (i 2).val < win0_6.index t (2 : Fin 3) * 512 + 512; omega

/-- A block index of the `[1, 2048, 512]` block is a row and a feature: its leading coordinate is `0`. -/
theorem gateup_block_index_split (y : S1x2048x512.Idx) : ∃ (r : Fin 2048) (j : Fin 512), y = ix3 (0 : Fin 1) r j :=
  ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩

/-- Entry `(r, k)` of a step's token block is entry `(e, r, k)` of the tokens: the block is expert `e`'s whole slab. -/
theorem gateup_tokens_read (c : Dev nD) (t : Fin cfg0.N) (p : Fin 2048) (q : Fin 2048) (e : Fin 8)
    (he : e.val = win0_6.index t (0 : Fin 3)) :
    (iblk0 (F := Ideal) V c 0 t : Vec Ideal S1x2048x2048 .f32) (ix3 (0 : Fin 1) p q)
      = (V c main_v0 : S8x2048x2048.Idx → EReal) (ix3 e p q) := by
  obtain ⟨a0, a1, a2, b0, b1, b2, c0, c1, c2, d0, d1, d2, f0, f1, f2, g0, g1, g2, o0, o1, o2⟩ := gateup_block_indices t
  show (V c main_v0 : S8x2048x2048.Idx → EReal) (((cfg0.win 0).blk t).view.emb (ix3 (0 : Fin 1) p q)) = _
  refine congrArg (V c main_v0 : S8x2048x2048.Idx → EReal) ?_
  funext a; apply Fin.ext
  match a with
  | ⟨0, _⟩ => show win0_0.index t (0 : Fin 3) * 1 + 1 * 0 = e.val; omega
  | ⟨1, _⟩ => show win0_0.index t (1 : Fin 3) * 2048 + 1 * p.val = p.val; omega
  | ⟨2, _⟩ => show win0_0.index t (2 : Fin 3) * 2048 + 1 * q.val = q.val; omega

/-- Entry `(j, k)` of a step's gate-weight block is entry `(e, d, k)` of the gate weights, `d` being feature `j` of the step's tile of 512. -/
theorem gateup_gate_weight_read (c : Dev nD) (t : Fin cfg0.N) (p : Fin 512) (q : Fin 2048) (e : Fin 8) (d : Fin 4096)
    (he : e.val = win0_6.index t (0 : Fin 3)) (hd : d.val = win0_6.index t (2 : Fin 3) * 512 + p.val) :
    (iblk0 (F := Ideal) V c 1 t : Vec Ideal S1x512x2048 .f32) (ix3 (0 : Fin 1) p q)
      = (V c main_v1 : S8x4096x2048.Idx → EReal) (ix3 e d q) := by
  obtain ⟨a0, a1, a2, b0, b1, b2, c0, c1, c2, d0, d1, d2, f0, f1, f2, g0, g1, g2, o0, o1, o2⟩ := gateup_block_indices t
  show (V c main_v1 : S8x4096x2048.Idx → EReal) (((cfg0.win 1).blk t).view.emb (ix3 (0 : Fin 1) p q)) = _
  refine congrArg (V c main_v1 : S8x4096x2048.Idx → EReal) ?_
  funext a; apply Fin.ext
  match a with
  | ⟨0, _⟩ => show win0_1.index t (0 : Fin 3) * 1 + 1 * 0 = e.val; omega
  | ⟨1, _⟩ => show win0_1.index t (1 : Fin 3) * 512 + 1 * p.val = d.val; omega
  | ⟨2, _⟩ => show win0_1.index t (2 : Fin 3) * 2048 + 1 * q.val = q.val; omega

/-- Entry `(j, k)` of a step's up-weight block is entry `(e, d, k)` of the up weights, `d` being feature `j` of the step's tile of 512. -/
theorem gateup_up_weight_read (c : Dev nD) (t : Fin cfg0.N) (p : Fin 512) (q : Fin 2048) (e : Fin 8) (d : Fin 4096)
    (he : e.val = win0_6.index t (0 : Fin 3)) (hd : d.val = win0_6.index t (2 : Fin 3) * 512 + p.val) :
    (iblk0 (F := Ideal) V c 2 t : Vec Ideal S1x512x2048 .f32) (ix3 (0 : Fin 1) p q)
      = (V c main_v2 : S8x4096x2048.Idx → EReal) (ix3 e d q) := by
  obtain ⟨a0, a1, a2, b0, b1, b2, c0, c1, c2, d0, d1, d2, f0, f1, f2, g0, g1, g2, o0, o1, o2⟩ := gateup_block_indices t
  show (V c main_v2 : S8x4096x2048.Idx → EReal) (((cfg0.win 2).blk t).view.emb (ix3 (0 : Fin 1) p q)) = _
  refine congrArg (V c main_v2 : S8x4096x2048.Idx → EReal) ?_
  funext a; apply Fin.ext
  match a with
  | ⟨0, _⟩ => show win0_2.index t (0 : Fin 3) * 1 + 1 * 0 = e.val; omega
  | ⟨1, _⟩ => show win0_2.index t (1 : Fin 3) * 512 + 1 * p.val = d.val; omega
  | ⟨2, _⟩ => show win0_2.index t (2 : Fin 3) * 2048 + 1 * q.val = q.val; omega

/-- Entry `(q, k)` of a step's adapter block is entry `(e, q, k)` of the adapters: the block is expert `e`'s eight rows. -/
theorem gateup_adapter_read (c : Dev nD) (t : Fin cfg0.N) (p : Fin 8) (q : Fin 2048) (e : Fin 8)
    (he : e.val = win0_6.index t (0 : Fin 3)) :
    (iblk0 (F := Ideal) V c 3 t : Vec Ideal S1x8x2048 .f32) (ix3 (0 : Fin 1) p q)
      = (V c main_arg2 : S8x8x2048.Idx → EReal) (ix3 e p q) := by
  obtain ⟨a0, a1, a2, b0, b1, b2, c0, c1, c2, d0, d1, d2, f0, f1, f2, g0, g1, g2, o0, o1, o2⟩ := gateup_block_indices t
  show (V c main_arg2 : S8x8x2048.Idx → EReal) (((cfg0.win 3).blk t).view.emb (ix3 (0 : Fin 1) p q)) = _
  refine congrArg (V c main_arg2 : S8x8x2048.Idx → EReal) ?_
  funext a; apply Fin.ext
  match a with
  | ⟨0, _⟩ => show win0_3.index t (0 : Fin 3) * 1 + 1 * 0 = e.val; omega
  | ⟨1, _⟩ => show win0_3.index t (1 : Fin 3) * 8 + 1 * p.val = p.val; omega
  | ⟨2, _⟩ => show win0_3.index t (2 : Fin 3) * 2048 + 1 * q.val = q.val; omega

/-- Entry `(j, q)` of a step's gate-coefficient block is entry `(e, d, q)` of the gate coefficients, `d` being feature `j` of the step's tile of 512. -/
theorem gateup_gate_coeff_read (c : Dev nD) (t : Fin cfg0.N) (p : Fin 512) (q : Fin 8) (e : Fin 8) (d : Fin 4096)
    (he : e.val = win0_6.index t (0 : Fin 3)) (hd : d.val = win0_6.index t (2 : Fin 3) * 512 + p.val) :
    (iblk0 (F := Ideal) V c 4 t : Vec Ideal S1x512x8 .f32) (ix3 (0 : Fin 1) p q)
      = (V c main_v3 : S8x4096x8.Idx → EReal) (ix3 e d q) := by
  obtain ⟨a0, a1, a2, b0, b1, b2, c0, c1, c2, d0, d1, d2, f0, f1, f2, g0, g1, g2, o0, o1, o2⟩ := gateup_block_indices t
  show (V c main_v3 : S8x4096x8.Idx → EReal) (((cfg0.win 4).blk t).view.emb (ix3 (0 : Fin 1) p q)) = _
  refine congrArg (V c main_v3 : S8x4096x8.Idx → EReal) ?_
  funext a; apply Fin.ext
  match a with
  | ⟨0, _⟩ => show win0_4.index t (0 : Fin 3) * 1 + 1 * 0 = e.val; omega
  | ⟨1, _⟩ => show win0_4.index t (1 : Fin 3) * 512 + 1 * p.val = d.val; omega
  | ⟨2, _⟩ => show win0_4.index t (2 : Fin 3) * 8 + 1 * q.val = q.val; omega

/-- Entry `(j, q)` of a step's up-coefficient block is entry `(e, d, q)` of the up coefficients, `d` being feature `j` of the step's tile of 512. -/
theorem gateup_up_coeff_read (c : Dev nD) (t : Fin cfg0.N) (p : Fin 512) (q : Fin 8) (e : Fin 8) (d : Fin 4096)
    (he : e.val = win0_6.index t (0 : Fin 3)) (hd : d.val = win0_6.index t (2 : Fin 3) * 512 + p.val) :
    (iblk0 (F := Ideal) V c 5 t : Vec Ideal S1x512x8 .f32) (ix3 (0 : Fin 1) p q)
      = (V c main_v4 : S8x4096x8.Idx → EReal) (ix3 e d q) := by
  obtain ⟨a0, a1, a2, b0, b1, b2, c0, c1, c2, d0, d1, d2, f0, f1, f2, g0, g1, g2, o0, o1, o2⟩ := gateup_block_indices t
  show (V c main_v4 : S8x4096x8.Idx → EReal) (((cfg0.win 5).blk t).view.emb (ix3 (0 : Fin 1) p q)) = _
  refine congrArg (V c main_v4 : S8x4096x8.Idx → EReal) ?_
  funext a; apply Fin.ext
  match a with
  | ⟨0, _⟩ => show win0_5.index t (0 : Fin 3) * 1 + 1 * 0 = e.val; omega
  | ⟨1, _⟩ => show win0_5.index t (1 : Fin 3) * 512 + 1 * p.val = d.val; omega
  | ⟨2, _⟩ => show win0_5.index t (2 : Fin 3) * 8 + 1 * q.val = q.val; omega

/-- SwiGLU of the gate and up LoRA entries of row `r` against feature `j` of a step's blocks is the hidden activation at
    `(e, r, d)`, `d` being feature `j` of the step's tile of 512: each block entry the two sums read is the array entry at the step's expert and feature tile. -/
theorem gateup_entry_at (c : Dev nD) (t : Fin cfg0.N) (r : Fin 2048) (j : Fin 512) (e : Fin 8) (d : Fin 4096)
    (he : e.val = win0_6.index t (0 : Fin 3)) (hd : d.val = win0_6.index t (2 : Fin 3) * 512 + j.val) :
    swiglu
        (loraEntry (fun k => (iblk0 (F := Ideal) V c 0 t : Vec Ideal S1x2048x2048 .f32) (ix3 (0 : Fin 1) r k))
          (fun k => (iblk0 (F := Ideal) V c 1 t : Vec Ideal S1x512x2048 .f32) (ix3 (0 : Fin 1) j k))
          (fun q k => (iblk0 (F := Ideal) V c 3 t : Vec Ideal S1x8x2048 .f32) (ix3 (0 : Fin 1) q k))
          (fun q => (iblk0 (F := Ideal) V c 4 t : Vec Ideal S1x512x8 .f32) (ix3 (0 : Fin 1) j q)))
        (loraEntry (fun k => (iblk0 (F := Ideal) V c 0 t : Vec Ideal S1x2048x2048 .f32) (ix3 (0 : Fin 1) r k))
          (fun k => (iblk0 (F := Ideal) V c 2 t : Vec Ideal S1x512x2048 .f32) (ix3 (0 : Fin 1) j k))
          (fun q k => (iblk0 (F := Ideal) V c 3 t : Vec Ideal S1x8x2048 .f32) (ix3 (0 : Fin 1) q k))
          (fun q => (iblk0 (F := Ideal) V c 5 t : Vec Ideal S1x512x8 .f32) (ix3 (0 : Fin 1) j q)))
      = hidden (V c main_v0) (V c main_v1) (V c main_v2) (V c main_arg2) (V c main_v3) (V c main_v4) (ix3 e r d) := by
  have hx : (fun k : Fin 2048 => (iblk0 (F := Ideal) V c 0 t : Vec Ideal S1x2048x2048 .f32) (ix3 (0 : Fin 1) r k))
      = fun k => (V c main_v0 : S8x2048x2048.Idx → EReal) (ix3 e r k) :=
    funext fun k => gateup_tokens_read V c t r k e he
  have hwg : (fun k : Fin 2048 => (iblk0 (F := Ideal) V c 1 t : Vec Ideal S1x512x2048 .f32) (ix3 (0 : Fin 1) j k))
      = fun k => (V c main_v1 : S8x4096x2048.Idx → EReal) (ix3 e d k) :=
    funext fun k => gateup_gate_weight_read V c t j k e d he hd
  have hwu : (fun k : Fin 2048 => (iblk0 (F := Ideal) V c 2 t : Vec Ideal S1x512x2048 .f32) (ix3 (0 : Fin 1) j k))
      = fun k => (V c main_v2 : S8x4096x2048.Idx → EReal) (ix3 e d k) :=
    funext fun k => gateup_up_weight_read V c t j k e d he hd
  have ha : (fun (q : Fin 8) (k : Fin 2048) => (iblk0 (F := Ideal) V c 3 t : Vec Ideal S1x8x2048 .f32) (ix3 (0 : Fin 1) q k))
      = fun q k => (V c main_arg2 : S8x8x2048.Idx → EReal) (ix3 e q k) :=
    funext fun q => funext fun k => gateup_adapter_read V c t q k e he
  have hbg : (fun q : Fin 8 => (iblk0 (F := Ideal) V c 4 t : Vec Ideal S1x512x8 .f32) (ix3 (0 : Fin 1) j q))
      = fun q => (V c main_v3 : S8x4096x8.Idx → EReal) (ix3 e d q) :=
    funext fun q => gateup_gate_coeff_read V c t j q e d he hd
  have hbu : (fun q : Fin 8 => (iblk0 (F := Ideal) V c 5 t : Vec Ideal S1x512x8 .f32) (ix3 (0 : Fin 1) j q))
      = fun q => (V c main_v4 : S8x4096x8.Idx → EReal) (ix3 e d q) :=
    funext fun q => gateup_up_coeff_read V c t j q e d he hd
  rw [hx, hwg, hwu, ha, hbg, hbu]
  rfl

/-- What a grid step writes back is its block of the hidden activations of the launch's arrays. -/
theorem gateup_flushed (c : Dev nD) (t : Fin cfg0.N) :
    (dat0 (F := Ideal) V c).flushed 6 t = ((cfg0.win 6).blk t).view.read (Elt Ideal) (hidden (V c main_v0) (V c main_v1) (V c main_v2) (V c main_arg2) (V c main_v3) (V c main_v4)) := by
  show (cfg0.win 6).cut (grid0.coords t) ((dat0 V c).after 6 t) = _
  rw [after0_6]
  unfold out0_6
  rw [View.canon_unit_zero gateup_origin]
  simp only [View.ld_unit_zero (S := S1x2048x2048) gateup_origin, View.ld_unit_zero (S := S1x512x2048) gateup_origin,
    View.ld_unit_zero (S := S1x8x2048) gateup_origin, View.ld_unit_zero (S := S1x512x8) gateup_origin]
  funext y
  obtain ⟨r, j, rfl⟩ := gateup_block_index_split y
  show k0_pay1 (F := Ideal) (k0_pay2 (iblk0 V c 0 t) (iblk0 V c 1 t) (iblk0 V c 2 t) (iblk0 V c 3 t) (iblk0 V c 4 t) (iblk0 V c 5 t)) (ix3 (0 : Fin 1) r j)
      = hidden (V c main_v0) (V c main_v1) (V c main_v2) (V c main_arg2) (V c main_v3) (V c main_v4) (((cfg0.win 6).blk t).view.emb (ix3 (0 : Fin 1) r j))
  refine (gateup_payload_apply (iblk0 V c 0 t) (iblk0 V c 1 t) (iblk0 V c 2 t) (iblk0 V c 3 t) (iblk0 V c 4 t) (iblk0 V c 5 t) r j).trans ?_
  obtain ⟨a0, a1, a2, b0, b1, b2, c0, c1, c2, d0, d1, d2, f0, f1, f2, g0, g1, g2, o0, o1, o2⟩ := gateup_block_indices t
  have hr : r.val < 2048 := r.isLt
  have hj : j.val < 512 := j.isLt
  refine (gateup_entry_at V c t r j ⟨win0_6.index t (0 : Fin 3), by omega⟩ ⟨win0_6.index t (2 : Fin 3) * 512 + j.val, by omega⟩ rfl rfl).trans ?_
  refine congrArg (hidden (V c main_v0) (V c main_v1) (V c main_v2) (V c main_arg2) (V c main_v3) (V c main_v4)) ?_
  funext a; apply Fin.ext
  match a with
  | ⟨0, _⟩ => show win0_6.index t (0 : Fin 3) = win0_6.index t (0 : Fin 3) * 1 + 1 * 0; omega
  | ⟨1, _⟩ => show r.val = win0_6.index t (1 : Fin 3) * 2048 + 1 * r.val; omega
  | ⟨2, _⟩ => show win0_6.index t (2 : Fin 3) * 512 + j.val = win0_6.index t (2 : Fin 3) * 512 + 1 * j.val; omega

theorem gateup_array (c : Dev nD) :
    (dat0 (F := Ideal) V c).arrAt 6 cfg0.N
      = hidden (V c main_v0) (V c main_v1) (V c main_v2) (V c main_arg2) (V c main_v3) (V c main_v4) :=
  (dat0 (F := Ideal) V c).arrAt_eq_of_cover 6 (hidden (V c main_v0) (V c main_v1) (V c main_v2) (V c main_arg2) (V c main_v3) (V c main_v4))
    (fun t _ => gateup_flushed V c t) gateup_cover

end Cert.KernelIdeal.RegionValue

end
-- ==== Proof.PayDown.lean ====
/-
  One entry of what a down-projection grid step stores: at row `t` and feature `j` of the step's `[1, 2048, 512]`
  block the body's value is the LoRA entry of row `t` of the step's hidden-activation block against feature row `j`
  of the step's weight and adapter blocks.
-/
import proofs.«167695_j86242943303913_1_alg».proof.Proof.Gen.KernelIdeal.Skeleton
import proofs.«167695_j86242943303913_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.LoraExperts Idealize.ShloMosaic Idealize.ShloMosaic.ValueIdx

/-! ## The three products of the body, each read at an entry

Every product contracts axis 1 of both operands: entry `(t, j)` pairs row `t` of the left operand with row `j` of the
right one. The four coordinate facts of each product's operand indices come first. -/

theorem dn_lhsA_0 (i : S2048x512.Idx) (q : dot_S2048x4096_S512x4096_S2048x512_1_1_0_0_n_n.contr.Idx) :
    (dot_S2048x4096_S512x4096_S2048x512_1_1_0_0_n_n.lhsIdx i q 0).val = (i 0).val := by
  unfold DotDims.lhsIdx
  rw [dif_neg (show ¬(0 : Fin S2048x4096.rank) ∈ dot_S2048x4096_S512x4096_S2048x512_1_1_0_0_n_n.lhsBatch by decide), dif_pos (show (0 : Fin S2048x4096.rank) ∈ dot_S2048x4096_S512x4096_S2048x512_1_1_0_0_n_n.lhsNonContracting by decide)]
  rfl
theorem dn_lhsA_1 (i : S2048x512.Idx) (q : dot_S2048x4096_S512x4096_S2048x512_1_1_0_0_n_n.contr.Idx) :
    (dot_S2048x4096_S512x4096_S2048x512_1_1_0_0_n_n.lhsIdx i q 1).val = (q ⟨0, by decide⟩).val :=
  dot_S2048x4096_S512x4096_S2048x512_1_1_0_0_n_n.lhsIdx_val_of_single rfl i q
theorem dn_rhsA_0 (i : S2048x512.Idx) (q : dot_S2048x4096_S512x4096_S2048x512_1_1_0_0_n_n.contr.Idx) :
    (dot_S2048x4096_S512x4096_S2048x512_1_1_0_0_n_n.rhsIdx i q 0).val = (i 1).val := by
  unfold DotDims.rhsIdx
  rw [dif_neg (show ¬(0 : Fin S512x4096.rank) ∈ dot_S2048x4096_S512x4096_S2048x512_1_1_0_0_n_n.rhsBatch by decide), dif_pos (show (0 : Fin S512x4096.rank) ∈ dot_S2048x4096_S512x4096_S2048x512_1_1_0_0_n_n.rhsNonContracting by decide)]
  rfl
theorem dn_rhsA_1 (i : S2048x512.Idx) (q : dot_S2048x4096_S512x4096_S2048x512_1_1_0_0_n_n.contr.Idx) :
    (dot_S2048x4096_S512x4096_S2048x512_1_1_0_0_n_n.rhsIdx i q 1).val = (q ⟨0, by decide⟩).val :=
  dot_S2048x4096_S512x4096_S2048x512_1_1_0_0_n_n.rhsIdx_val_of_single rfl i q

/-- The product into a zero accumulator, read at row `t` and column `j`: the sum over the contracted axis of the
    left operand's row `t` times the right operand's row `j`. -/
theorem dn_dotA_apply {φ₁ φ₂ : FTy} (l : FVec Ideal S2048x4096 φ₁) (r : FVec Ideal S512x4096 φ₂) (t : Fin 2048) (j : Fin 512) :
    matmul (F := Ideal) dot_S2048x4096_S512x4096_S2048x512_1_1_0_0_n_n none l r (constant (F := Ideal) S2048x512 .f32 0x00000000#32) (ix2 t j) =
      ∑ k : Fin 4096, l (ix2 t k) * r (ix2 j k) := by
  simp only [matmul]
  rw [Ideal.matmul_constant_zero_apply, ← Equiv.sum_comp (contrEquiv1 dot_S2048x4096_S512x4096_S2048x512_1_1_0_0_n_n 4096 rfl rfl).symm]
  refine Finset.sum_congr rfl fun k _ => ?_
  have hk := contrEquiv1_symm_val dot_S2048x4096_S512x4096_S2048x512_1_1_0_0_n_n 4096 rfl rfl k
  have el : dot_S2048x4096_S512x4096_S2048x512_1_1_0_0_n_n.lhsIdx (ix2 t j) ((contrEquiv1 dot_S2048x4096_S512x4096_S2048x512_1_1_0_0_n_n 4096 rfl rfl).symm k) = ix2 t k := funext fun a => Fin.ext (by
    match a with
    | ⟨0, _⟩ => exact dn_lhsA_0 _ _
    | ⟨1, _⟩ => exact (dn_lhsA_1 _ _).trans hk)
  have er : dot_S2048x4096_S512x4096_S2048x512_1_1_0_0_n_n.rhsIdx (ix2 t j) ((contrEquiv1 dot_S2048x4096_S512x4096_S2048x512_1_1_0_0_n_n 4096 rfl rfl).symm k) = ix2 j k := funext fun a => Fin.ext (by
    match a with
    | ⟨0, _⟩ => exact dn_rhsA_0 _ _
    | ⟨1, _⟩ => exact (dn_rhsA_1 _ _).trans hk)
  rw [el, er]

theorem dn_lhsB_0 (i : S2048x8.Idx) (q : dot_S2048x4096_S8x4096_S2048x8_1_1_0_0_n_n.contr.Idx) :
    (dot_S2048x4096_S8x4096_S2048x8_1_1_0_0_n_n.lhsIdx i q 0).val = (i 0).val := by
  unfold DotDims.lhsIdx
  rw [dif_neg (show ¬(0 : Fin S2048x4096.rank) ∈ dot_S2048x4096_S8x4096_S2048x8_1_1_0_0_n_n.lhsBatch by decide), dif_pos (show (0 : Fin S2048x4096.rank) ∈ dot_S2048x4096_S8x4096_S2048x8_1_1_0_0_n_n.lhsNonContracting by decide)]
  rfl
theorem dn_lhsB_1 (i : S2048x8.Idx) (q : dot_S2048x4096_S8x4096_S2048x8_1_1_0_0_n_n.contr.Idx) :
    (dot_S2048x4096_S8x4096_S2048x8_1_1_0_0_n_n.lhsIdx i q 1).val = (q ⟨0, by decide⟩).val :=
  dot_S2048x4096_S8x4096_S2048x8_1_1_0_0_n_n.lhsIdx_val_of_single rfl i q
theorem dn_rhsB_0 (i : S2048x8.Idx) (q : dot_S2048x4096_S8x4096_S2048x8_1_1_0_0_n_n.contr.Idx) :
    (dot_S2048x4096_S8x4096_S2048x8_1_1_0_0_n_n.rhsIdx i q 0).val = (i 1).val := by
  unfold DotDims.rhsIdx
  rw [dif_neg (show ¬(0 : Fin S8x4096.rank) ∈ dot_S2048x4096_S8x4096_S2048x8_1_1_0_0_n_n.rhsBatch by decide), dif_pos (show (0 : Fin S8x4096.rank) ∈ dot_S2048x4096_S8x4096_S2048x8_1_1_0_0_n_n.rhsNonContracting by decide)]
  rfl
theorem dn_rhsB_1 (i : S2048x8.Idx) (q : dot_S2048x4096_S8x4096_S2048x8_1_1_0_0_n_n.contr.Idx) :
    (dot_S2048x4096_S8x4096_S2048x8_1_1_0_0_n_n.rhsIdx i q 1).val = (q ⟨0, by decide⟩).val :=
  dot_S2048x4096_S8x4096_S2048x8_1_1_0_0_n_n.rhsIdx_val_of_single rfl i q

/-- The product into a zero accumulator, read at row `t` and column `j`: the sum over the contracted axis of the
    left operand's row `t` times the right operand's row `j`. -/
theorem dn_dotB_apply {φ₁ φ₂ : FTy} (l : FVec Ideal S2048x4096 φ₁) (r : FVec Ideal S8x4096 φ₂) (t : Fin 2048) (j : Fin 8) :
    matmul (F := Ideal) dot_S2048x4096_S8x4096_S2048x8_1_1_0_0_n_n none l r (constant (F := Ideal) S2048x8 .f32 0x00000000#32) (ix2 t j) =
      ∑ k : Fin 4096, l (ix2 t k) * r (ix2 j k) := by
  simp only [matmul]
  rw [Ideal.matmul_constant_zero_apply, ← Equiv.sum_comp (contrEquiv1 dot_S2048x4096_S8x4096_S2048x8_1_1_0_0_n_n 4096 rfl rfl).symm]
  refine Finset.sum_congr rfl fun k _ => ?_
  have hk := contrEquiv1_symm_val dot_S2048x4096_S8x4096_S2048x8_1_1_0_0_n_n 4096 rfl rfl k
  have el : dot_S2048x4096_S8x4096_S2048x8_1_1_0_0_n_n.lhsIdx (ix2 t j) ((contrEquiv1 dot_S2048x4096_S8x4096_S2048x8_1_1_0_0_n_n 4096 rfl rfl).symm k) = ix2 t k := funext fun a => Fin.ext (by
    match a with
    | ⟨0, _⟩ => exact dn_lhsB_0 _ _
    | ⟨1, _⟩ => exact (dn_lhsB_1 _ _).trans hk)
  have er : dot_S2048x4096_S8x4096_S2048x8_1_1_0_0_n_n.rhsIdx (ix2 t j) ((contrEquiv1 dot_S2048x4096_S8x4096_S2048x8_1_1_0_0_n_n 4096 rfl rfl).symm k) = ix2 j k := funext fun a => Fin.ext (by
    match a with
    | ⟨0, _⟩ => exact dn_rhsB_0 _ _
    | ⟨1, _⟩ => exact (dn_rhsB_1 _ _).trans hk)
  rw [el, er]

theorem dn_lhsC_0 (i : S2048x512.Idx) (q : dot_S2048x8_S512x8_S2048x512_1_1_0_0_n_n.contr.Idx) :
    (dot_S2048x8_S512x8_S2048x512_1_1_0_0_n_n.lhsIdx i q 0).val = (i 0).val := by
  unfold DotDims.lhsIdx
  rw [dif_neg (show ¬(0 : Fin S2048x8.rank) ∈ dot_S2048x8_S512x8_S2048x512_1_1_0_0_n_n.lhsBatch by decide), dif_pos (show (0 : Fin S2048x8.rank) ∈ dot_S2048x8_S512x8_S2048x512_1_1_0_0_n_n.lhsNonContracting by decide)]
  rfl
theorem dn_lhsC_1 (i : S2048x512.Idx) (q : dot_S2048x8_S512x8_S2048x512_1_1_0_0_n_n.contr.Idx) :
    (dot_S2048x8_S512x8_S2048x512_1_1_0_0_n_n.lhsIdx i q 1).val = (q ⟨0, by decide⟩).val :=
  dot_S2048x8_S512x8_S2048x512_1_1_0_0_n_n.lhsIdx_val_of_single rfl i q
theorem dn_rhsC_0 (i : S2048x512.Idx) (q : dot_S2048x8_S512x8_S2048x512_1_1_0_0_n_n.contr.Idx) :
    (dot_S2048x8_S512x8_S2048x512_1_1_0_0_n_n.rhsIdx i q 0).val = (i 1).val := by
  unfold DotDims.rhsIdx
  rw [dif_neg (show ¬(0 : Fin S512x8.rank) ∈ dot_S2048x8_S512x8_S2048x512_1_1_0_0_n_n.rhsBatch by decide), dif_pos (show (0 : Fin S512x8.rank) ∈ dot_S2048x8_S512x8_S2048x512_1_1_0_0_n_n.rhsNonContracting by decide)]
  rfl
theorem dn_rhsC_1 (i : S2048x512.Idx) (q : dot_S2048x8_S512x8_S2048x512_1_1_0_0_n_n.contr.Idx) :
    (dot_S2048x8_S512x8_S2048x512_1_1_0_0_n_n.rhsIdx i q 1).val = (q ⟨0, by decide⟩).val :=
  dot_S2048x8_S512x8_S2048x512_1_1_0_0_n_n.rhsIdx_val_of_single rfl i q

/-- The product into a zero accumulator, read at row `t` and column `j`: the sum over the contracted axis of the
    left operand's row `t` times the right operand's row `j`. -/
theorem dn_dotC_apply {φ₁ φ₂ : FTy} (l : FVec Ideal S2048x8 φ₁) (r : FVec Ideal S512x8 φ₂) (t : Fin 2048) (j : Fin 512) :
    matmul (F := Ideal) dot_S2048x8_S512x8_S2048x512_1_1_0_0_n_n none l r (constant (F := Ideal) S2048x512 .f32 0x00000000#32) (ix2 t j) =
      ∑ k : Fin 8, l (ix2 t k) * r (ix2 j k) := by
  simp only [matmul]
  rw [Ideal.matmul_constant_zero_apply, ← Equiv.sum_comp (contrEquiv1 dot_S2048x8_S512x8_S2048x512_1_1_0_0_n_n 8 rfl rfl).symm]
  refine Finset.sum_congr rfl fun k _ => ?_
  have hk := contrEquiv1_symm_val dot_S2048x8_S512x8_S2048x512_1_1_0_0_n_n 8 rfl rfl k
  have el : dot_S2048x8_S512x8_S2048x512_1_1_0_0_n_n.lhsIdx (ix2 t j) ((contrEquiv1 dot_S2048x8_S512x8_S2048x512_1_1_0_0_n_n 8 rfl rfl).symm k) = ix2 t k := funext fun a => Fin.ext (by
    match a with
    | ⟨0, _⟩ => exact dn_lhsC_0 _ _
    | ⟨1, _⟩ => exact (dn_lhsC_1 _ _).trans hk)
  have er : dot_S2048x8_S512x8_S2048x512_1_1_0_0_n_n.rhsIdx (ix2 t j) ((contrEquiv1 dot_S2048x8_S512x8_S2048x512_1_1_0_0_n_n 8 rfl rfl).symm k) = ix2 j k := funext fun a => Fin.ext (by
    match a with
    | ⟨0, _⟩ => exact dn_rhsC_0 _ _
    | ⟨1, _⟩ => exact (dn_rhsC_1 _ _).trans hk)
  rw [el, er]

/-! ## The unit axis of a block -/

/-- Dropping the leading unit axis of a `[1, a, b]` block reads entry `(t, j)` at `(0, t, j)`. -/
theorem dn_drop_apply {α : Type} {a b : Nat} (v : (⟨3, ![1, a, b]⟩ : Shape).Idx → α)
    (h : (⟨3, ![1, a, b]⟩ : Shape).ShapeCasts ⟨2, ![a, b]⟩) (t : Fin a) (j : Fin b) :
    shapeCast ⟨2, ![a, b]⟩ v h (ix2 t j) = v (ix3 (0 : Fin 1) t j) := by
  refine (shapeCast_dropUnit_apply ![a, b] v h (ix2 t j)).trans (congrArg v ?_)
  funext d
  match d with
  | ⟨0, _⟩ => rfl
  | ⟨1, _⟩ => rfl
  | ⟨2, _⟩ => rfl

/-- Adding a leading unit axis to an `[a, b]` value reads `(0, t, j)` at entry `(t, j)`. -/
theorem dn_add_apply {α : Type} {a b : Nat} (v : (⟨2, ![a, b]⟩ : Shape).Idx → α)
    (h : (⟨2, ![a, b]⟩ : Shape).ShapeCasts ⟨3, ![1, a, b]⟩) (t : Fin a) (j : Fin b) :
    shapeCast ⟨3, ![1, a, b]⟩ v h (ix3 (0 : Fin 1) t j) = v (ix2 t j) := by
  refine (shapeCast_addUnit_apply ![a, b] v h (ix3 (0 : Fin 1) t j)).trans (congrArg v ?_)
  funext d
  match d with
  | ⟨0, _⟩ => rfl
  | ⟨1, _⟩ => rfl

/-! ## The stored entry -/

theorem down_payload_apply (x0 : Vec Ideal S1x2048x4096 .bf16) (x1 : Vec Ideal S1x512x4096 .f32)
    (x2 : Vec Ideal S1x8x4096 .f32) (x3 : Vec Ideal S1x512x8 .f32) (t : Fin 2048) (j : Fin 512) :
    k1_pay1 (F := Ideal) x0 x1 x2 x3 (ix3 (0 : Fin 1) t j) =
      loraEntry (fun d => x0 (ix3 (0 : Fin 1) t d)) (fun d => x1 (ix3 (0 : Fin 1) j d))
        (fun r d => x2 (ix3 (0 : Fin 1) r d)) (fun r => x3 (ix3 (0 : Fin 1) j r)) := by
  unfold k1_pay1 loraEntry
  refine (dn_add_apply _ _ t j).trans ?_
  simp only [addf_apply, mulf_apply, broadcast_apply, truncf_apply, dn_dotA_apply, dn_dotB_apply, dn_dotC_apply,
    dn_drop_apply]
  rfl

end Cert.KernelIdeal.BodyValue

end
-- ==== Proof.RegionDown.lean ====
/-
  The down-projection launch as a whole: its 8 × 4 grid steps each write one `[1, 2048, 512]` block of the output, the
  blocks tile the `[8, 2048, 2048]` array, and entry `(e, t, j)` of the array the launch leaves is the LoRA entry of
  hidden row `(e, t)` against output feature `j` of expert `e`'s down weights, as the launch finds them.
-/
import proofs.«167695_j86242943303913_1_alg».proof.Proof.Gen.KernelIdeal.Frame
import proofs.«167695_j86242943303913_1_alg».proof.Proof.PayDown
import proofs.«167695_j86242943303913_1_alg».proof.Proof.Spec
import Idealize.ShloMosaic.Lib.ValueIdx
import Idealize.ShloMosaic.Lib.Pipeline.Value

set_option maxRecDepth 16384

noncomputable section

open scoped BigOperators

namespace Cert.KernelIdeal.RegionValue

open Cert.KernelIdeal Cert.KernelIdeal.Gen Cert.KernelIdeal.BodyValue Cert.LoraExperts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stores and loads all sit at offset zero of their blocks. -/
theorem down_offsets_zero : (![0, 0, 0] : Fin 3 → Nat) = fun _ => 0 := funext fun a => by fin_cases a <;> rfl

/-- The block index maps over the 8 × 4 grid, at step (e, h): the hidden activations and the adapters sit at block
    (e, 0, 0), the weights and the coefficients at block (e, h, 0), the output at block (e, 0, h), with e ≤ 7 and h ≤ 3. -/
theorem down_idx_facts : ∀ t : Fin cfg1.N,
    win1_0.index t (0 : Fin 3) = win1_4.index t (0 : Fin 3)
    ∧ win1_0.index t (1 : Fin 3) = 0
    ∧ win1_0.index t (2 : Fin 3) = 0
    ∧ win1_1.index t (0 : Fin 3) = win1_4.index t (0 : Fin 3)
    ∧ win1_1.index t (1 : Fin 3) = win1_4.index t (2 : Fin 3)
    ∧ win1_1.index t (2 : Fin 3) = 0
    ∧ win1_2.index t (0 : Fin 3) = win1_4.index t (0 : Fin 3)
    ∧ win1_2.index t (1 : Fin 3) = 0
    ∧ win1_2.index t (2 : Fin 3) = 0
    ∧ win1_3.index t (0 : Fin 3) = win1_4.index t (0 : Fin 3)
    ∧ win1_3.index t (1 : Fin 3) = win1_4.index t (2 : Fin 3)
    ∧ win1_3.index t (2 : Fin 3) = 0
    ∧ win1_4.index t (0 : Fin 3) ≤ 7
    ∧ win1_4.index t (1 : Fin 3) = 0
    ∧ win1_4.index t (2 : Fin 3) ≤ 3 :=
  (by decide +kernel : ∀ t : Fin grid1.N, _)

/-- Every output block (e, 0, h) with e < 8 and h < 4 is some grid step's. -/
theorem down_idx_onto : ∀ (q0 : Fin 8) (q2 : Fin 4), ∃ t : Fin cfg1.N, win1_4.index t = ![q0.val, 0, q2.val] :=
  (by decide +kernel : ∀ (q0 : Fin 8) (q2 : Fin 4), ∃ t : Fin grid1.N, win1_4.index t = ![q0.val, 0, q2.val])

/-- An index of the output array is in step `t`'s block iff each coordinate is in the block's range on its axis. -/
theorem down_mem_blk (t : Fin cfg1.N) (i : S8x2048x2048.Idx) :
    i ∈ ((cfg1.win 4).blk t).view.set ↔ ∀ a : Fin 3, win1_4.index t a * S1x2048x512.size a ≤ (i a).val ∧ (i a).val < win1_4.index t a * S1x2048x512.size a + S1x2048x512.size a := by
  show i ∈ ((View.whole main_v6).slice (win1_4.rect t)).set ↔ _
  rw [View.set_slice_whole, Rect.mem_set_unit]
  exact Iff.rfl

/-- The blocks tile the array: entry `(e, r, o)` is in the block of the step at expert `e` and output tile `o / 512`. -/
theorem down_cover (i : S8x2048x2048.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 2048 := (i 2).isLt
  obtain ⟨t, ht⟩ := down_idx_onto ⟨(i 0).val, hi0⟩ ⟨(i 2).val / 512, by omega⟩
  have q0 : win1_4.index t (0 : Fin 3) = (i 0).val := congrFun ht 0
  have q1 : win1_4.index t (1 : Fin 3) = 0 := congrFun ht 1
  have q2 : win1_4.index t (2 : Fin 3) = (i 2).val / 512 := congrFun ht 2
  refine ⟨t, flush1_4 t, ?_⟩
  rw [down_mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 512 ≤ (i 2).val ∧ (i 2).val < win1_4.index t (2 : Fin 3) * 512 + 512; omega

/-- A LoRA entry depends on its row, weight row, adapter rows and coefficients only through their values. -/
private theorem down_loraEntry_congr {I : Nat} {x x' w w' : Fin I → EReal} {a a' : Fin 8 → Fin I → EReal} {b b' : Fin 8 → EReal}
    (hx : ∀ k, x k = x' k) (hw : ∀ k, w k = w' k) (ha : ∀ r k, a r k = a' r k) (hb : ∀ r, b r = b' r) :
    loraEntry x w a b = loraEntry x' w' a' b' := by
  have ex : x = x' := funext hx
  have ew : w = w' := funext hw
  have ea : a = a' := funext fun r => funext (ha r)
  have eb : b = b' := funext hb
  rw [ex, ew, ea, eb]

/-- Entry `(r, j)` of what step `t` computes from its blocks is the down projection of the whole arrays at the place of
    the output array where the step's block puts `(r, j)`: each block entry the body reads is the array entry at block
    index × block size + the coordinate inside the block, and the blocks' indices are those of `down_idx_facts`. -/
theorem down_block_entry (c : Dev nD) (t : Fin cfg1.N) (r : Fin 2048) (j : Fin 512) :
    k1_pay1 (F := Ideal) (iblk1 V c 0 t) (iblk1 V c 1 t) (iblk1 V c 2 t) (iblk1 V c 3 t) (ix3 (0 : Fin 1) r j)
      = projected (V c main_v5) (V c main_arg4) (V c main_arg5) (V c main_arg6)
          (((cfg1.win 4).blk t).view.emb (ix3 (0 : Fin 1) r j)) := by
  refine (down_payload_apply _ _ _ _ r j).trans ?_
  obtain ⟨e00, e01, e02, e10, e11, e12, e20, e21, e22, e30, e31, e32, b0, b1, b2⟩ := down_idx_facts t
  refine down_loraEntry_congr (fun d => ?_) (fun d => ?_) (fun q d => ?_) (fun q => ?_)
  · show V c main_v5 (((cfg1.win 0).blk t).view.emb (ix3 (0 : Fin 1) r d)) = V c main_v5 _
    refine congrArg (V c main_v5) (funext fun a => Fin.ext ?_)
    match a with
    | ⟨0, _⟩ => show win1_0.index t (0 : Fin 3) * 1 + 1 * 0 = win1_4.index t (0 : Fin 3) * 1 + 1 * 0; omega
    | ⟨1, _⟩ => show win1_0.index t (1 : Fin 3) * 2048 + 1 * r.val = win1_4.index t (1 : Fin 3) * 2048 + 1 * r.val; omega
    | ⟨2, _⟩ => show win1_0.index t (2 : Fin 3) * 4096 + 1 * d.val = d.val; omega
  · show V c main_arg4 (((cfg1.win 1).blk t).view.emb (ix3 (0 : Fin 1) j d)) = V c main_arg4 _
    refine congrArg (V c main_arg4) (funext fun a => Fin.ext ?_)
    match a with
    | ⟨0, _⟩ => show win1_1.index t (0 : Fin 3) * 1 + 1 * 0 = win1_4.index t (0 : Fin 3) * 1 + 1 * 0; omega
    | ⟨1, _⟩ => show win1_1.index t (1 : Fin 3) * 512 + 1 * j.val = win1_4.index t (2 : Fin 3) * 512 + 1 * j.val; omega
    | ⟨2, _⟩ => show win1_1.index t (2 : Fin 3) * 4096 + 1 * d.val = d.val; omega
  · show V c main_arg5 (((cfg1.win 2).blk t).view.emb (ix3 (0 : Fin 1) q d)) = V c main_arg5 _
    refine congrArg (V c main_arg5) (funext fun a => Fin.ext ?_)
    match a with
    | ⟨0, _⟩ => show win1_2.index t (0 : Fin 3) * 1 + 1 * 0 = win1_4.index t (0 : Fin 3) * 1 + 1 * 0; omega
    | ⟨1, _⟩ => show win1_2.index t (1 : Fin 3) * 8 + 1 * q.val = q.val; omega
    | ⟨2, _⟩ => show win1_2.index t (2 : Fin 3) * 4096 + 1 * d.val = d.val; omega
  · show V c main_arg6 (((cfg1.win 3).blk t).view.emb (ix3 (0 : Fin 1) j q)) = V c main_arg6 _
    refine congrArg (V c main_arg6) (funext fun a => Fin.ext ?_)
    match a with
    | ⟨0, _⟩ => show win1_3.index t (0 : Fin 3) * 1 + 1 * 0 = win1_4.index t (0 : Fin 3) * 1 + 1 * 0; omega
    | ⟨1, _⟩ => show win1_3.index t (1 : Fin 3) * 512 + 1 * j.val = win1_4.index t (2 : Fin 3) * 512 + 1 * j.val; omega
    | ⟨2, _⟩ => show win1_3.index t (2 : Fin 3) * 8 + 1 * q.val = q.val; omega

/-- What step `t` writes back is block `t` of the down projection of the whole arrays as the launch finds them. -/
theorem down_flushed (c : Dev nD) (t : Fin cfg1.N) :
    (dat1 (F := Ideal) V c).flushed 4 t = ((cfg1.win 4).blk t).view.read (Elt Ideal)
      (projected (V c main_v5) (V c main_arg4) (V c main_arg5) (V c main_arg6)) := by
  show (cfg1.win 4).cut (grid1.coords t) ((dat1 V c).after 4 t) = _
  rw [after1_4]
  unfold out1_4
  rw [View.canon_unit_zero down_offsets_zero]
  simp only [View.ld_unit_zero (S := S1x2048x4096) down_offsets_zero, View.ld_unit_zero (S := S1x512x4096) down_offsets_zero,
    View.ld_unit_zero (S := S1x8x4096) down_offsets_zero, View.ld_unit_zero (S := S1x512x8) down_offsets_zero]
  funext y
  have hy : y = ix3 (0 : Fin 1) (⟨(y 1).val, (y 1).isLt⟩ : Fin 2048) (⟨(y 2).val, (y 2).isLt⟩ : Fin 512) := by
    funext a
    match a with
    | ⟨0, _⟩ => exact Subsingleton.elim (α := Fin 1) _ _
    | ⟨1, _⟩ => rfl
    | ⟨2, _⟩ => rfl
  have key := down_block_entry V c t ⟨(y 1).val, (y 1).isLt⟩ ⟨(y 2).val, (y 2).isLt⟩
  rw [← hy] at key
  exact key

theorem down_array (c : Dev nD) :
    (dat1 (F := Ideal) V c).arrAt 4 cfg1.N
      = projected (V c main_v5) (V c main_arg4) (V c main_arg5) (V c main_arg6) :=
  (dat1 (F := Ideal) V c).arrAt_eq_of_cover 4 _ (fun t _ => down_flushed V c t) down_cover

end Cert.KernelIdeal.RegionValue

end
-- ==== Proof.KValue.lean ====
/-
  The kernel's result as one function of the launch memory: the result buffer holds the expert block of the regrouped
  tokens and the six parameter arrays, regrouped as `[16384, 2048]`. The last host operation regroups the second
  launch's output; that output is the down projection of the hidden activations and the down parameters; the hidden
  activations are what the first launch leaves, the SwiGLU of the gate and up layers of the regrouped tokens against the
  gate rows and up rows of the fused parameters.
-/
import proofs.«167695_j86242943303913_1_alg».proof.Proof.KHost
import proofs.«167695_j86242943303913_1_alg».proof.Proof.RegionGateUp
import proofs.«167695_j86242943303913_1_alg».proof.Proof.RegionDown

set_option maxRecDepth 16384

noncomputable section

namespace Cert.KernelIdeal.HostValue

open Cert.KernelIdeal Cert.KernelIdeal.Gen Cert.KernelIdeal.RegionValue Cert.LoraExperts
open Idealize.ShloMosaic Idealize.ShloMosaic.TcCoe Idealize.SL.Sem

variable (m : (ℓ : Loc nD τ sig) → Buf (Elt Ideal) ℓ) (ρ : Dev nD → PrngReg)

theorem kernel_value (c : Dev nD) :
    W4 m ρ c (Proc.devRef .tc main_v7)
      = shapeCast S16384x2048
          (expertBlock
            (shapeCast S8x2048x2048 (m ((c : Thread nD τ).loc main_arg0)) shapeCasts_S16384x2048_S8x2048x2048)
            (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6)))
          shapeCasts_S8x2048x2048_S16384x2048 := by
  rw [result_regrouped m ρ c, exit_output m ρ c, down_array (V2 m ρ) c, mid_hidden m ρ c, gateup_array (V1 m ρ) c,
    mid_down_weights m ρ c, mid_down_adapters m ρ c, mid_down_coeffs m ρ c,
    entry_tokens m ρ c, entry_gate_weights m ρ c, entry_up_weights m ρ c, entry_adapters m ρ c,
    entry_gate_coeffs m ρ c, entry_up_coeffs m ρ c]
  rfl

end Cert.KernelIdeal.HostValue

end
-- ==== Proof.RefValue.lean ====
/-
  What the reference computes, read back: its result buffer is the `[8, 2048, 2048]` expert block of the tokens (the
  first argument regrouped as 8 experts × 2048 tokens) and the six parameter arrays, regrouped as `[16384, 2048]`. The
  reference forms the fused gate/up LoRA layer first and slices it into its halves afterwards; entry by entry that is the
  layer against the gate rows and against the up rows of the fused parameters. Its `silu` spells the logistic function
  out as `1 / (1 + exp (−g))`, which is the logistic function on the extended reals.
-/
import proofs.«167695_j86242943303913_1_alg».proof.Proof.Gen.ReferenceIdeal.Read
import proofs.«167695_j86242943303913_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Cert.LoraExperts
open Idealize.ShloMosaic Idealize.ShloMosaic.TcCoe Idealize.ShloMosaic.ValueIdx Idealize.SL.Sem

/-! ## The contractions' operand indices at an entry given by coordinates -/

theorem lidx1 (e : Fin 8) (t : Fin 2048) (o : Fin 8192) (k : Fin 2048) :
    lidx_main_v1 (ix3 e t o) k = ix3 e t k :=
  funext fun a => by match a with | ⟨0, _⟩ => rfl | ⟨1, _⟩ => rfl | ⟨2, _⟩ => rfl
theorem ridx1 (e : Fin 8) (t : Fin 2048) (o : Fin 8192) (k : Fin 2048) :
    ridx_main_v1 (ix3 e t o) k = ix3 e o k :=
  funext fun a => by match a with | ⟨0, _⟩ => rfl | ⟨1, _⟩ => rfl | ⟨2, _⟩ => rfl
theorem lidx2 (e : Fin 8) (t : Fin 2048) (r : Fin 8) (k : Fin 2048) :
    lidx_main_v2 (ix3 e t r) k = ix3 e t k :=
  funext fun a => by match a with | ⟨0, _⟩ => rfl | ⟨1, _⟩ => rfl | ⟨2, _⟩ => rfl
theorem ridx2 (e : Fin 8) (t : Fin 2048) (r : Fin 8) (k : Fin 2048) :
    ridx_main_v2 (ix3 e t r) k = ix3 e r k :=
  funext fun a => by match a with | ⟨0, _⟩ => rfl | ⟨1, _⟩ => rfl | ⟨2, _⟩ => rfl
theorem lidx3 (e : Fin 8) (t : Fin 2048) (o : Fin 8192) (r : Fin 8) :
    lidx_main_v3 (ix3 e t o) r = ix3 e t r :=
  funext fun a => by match a with | ⟨0, _⟩ => rfl | ⟨1, _⟩ => rfl | ⟨2, _⟩ => rfl
theorem ridx3 (e : Fin 8) (t : Fin 2048) (o : Fin 8192) (r : Fin 8) :
    ridx_main_v3 (ix3 e t o) r = ix3 e o r :=
  funext fun a => by match a with | ⟨0, _⟩ => rfl | ⟨1, _⟩ => rfl | ⟨2, _⟩ => rfl
theorem lidx11 (e : Fin 8) (t : Fin 2048) (j : Fin 2048) (k : Fin 4096) :
    lidx_main_v11 (ix3 e t j) k = ix3 e t k :=
  funext fun a => by match a with | ⟨0, _⟩ => rfl | ⟨1, _⟩ => rfl | ⟨2, _⟩ => rfl
theorem ridx11 (e : Fin 8) (t : Fin 2048) (j : Fin 2048) (k : Fin 4096) :
    ridx_main_v11 (ix3 e t j) k = ix3 e j k :=
  funext fun a => by match a with | ⟨0, _⟩ => rfl | ⟨1, _⟩ => rfl | ⟨2, _⟩ => rfl
theorem lidx12 (e : Fin 8) (t : Fin 2048) (r : Fin 8) (k : Fin 4096) :
    lidx_main_v12 (ix3 e t r) k = ix3 e t k :=
  funext fun a => by match a with | ⟨0, _⟩ => rfl | ⟨1, _⟩ => rfl | ⟨2, _⟩ => rfl
theorem ridx12 (e : Fin 8) (t : Fin 2048) (r : Fin 8) (k : Fin 4096) :
    ridx_main_v12 (ix3 e t r) k = ix3 e r k :=
  funext fun a => by match a with | ⟨0, _⟩ => rfl | ⟨1, _⟩ => rfl | ⟨2, _⟩ => rfl
theorem lidx13 (e : Fin 8) (t : Fin 2048) (j : Fin 2048) (r : Fin 8) :
    lidx_main_v13 (ix3 e t j) r = ix3 e t r :=
  funext fun a => by match a with | ⟨0, _⟩ => rfl | ⟨1, _⟩ => rfl | ⟨2, _⟩ => rfl
theorem ridx13 (e : Fin 8) (t : Fin 2048) (j : Fin 2048) (r : Fin 8) :
    ridx_main_v13 (ix3 e t j) r = ix3 e j r :=
  funext fun a => by match a with | ⟨0, _⟩ => rfl | ⟨1, _⟩ => rfl | ⟨2, _⟩ => rfl

/-- The gate slice reads the fused layer at the same feature. -/
theorem idx7 (e : Fin 8) (t : Fin 2048) (d : Fin 4096) :
    idx_main_v7 (ix3 e t d) = ix3 e t (⟨d.val, Nat.lt_trans d.isLt (by norm_num)⟩ : Fin 8192) :=
  funext fun a => by match a with | ⟨0, _⟩ => rfl | ⟨1, _⟩ => rfl | ⟨2, _⟩ => rfl
/-- The up slice reads the fused layer 4096 features further. -/
theorem idx8 (e : Fin 8) (t : Fin 2048) (d : Fin 4096) :
    idx_main_v8 (ix3 e t d) = ix3 e t (⟨4096 + d.val, by have h : d.val < 4096 := d.isLt; omega⟩ : Fin 8192) :=
  funext fun a => by match a with | ⟨0, _⟩ => rfl | ⟨1, _⟩ => rfl | ⟨2, _⟩ => rfl

/-! ## The stages -/

/-- The fused gate/up layer at an entry: the base product plus twice the low-rank correction. -/
theorem fused_at (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (e : Fin 8) (t : Fin 2048) (o : Fin 8192) :
    val_main_v6 (F := Ideal) x0 x1 x2 x3 (ix3 e t o) = loraAt (val_main_v0 (F := Ideal) x0) x1 x2 x3 e t o := by
  rw [val_main_v6_apply, val_main_v1_apply, val_main_v5_apply, val_main_v4_apply, val_main_cst_apply, val_main_v3_apply]
  simp only [lidx1, ridx1, lidx3, ridx3, val_main_v2_apply, lidx2, ridx2, Ideal.addf_def, Ideal.mulf_def, Ideal.ofBits_def]
  rfl

/-- The gate half: the layer against the gate rows of the fused parameters. -/
theorem gate_at (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (e : Fin 8) (t : Fin 2048) (d : Fin 4096) :
    val_main_v7 (F := Ideal) x0 x1 x2 x3 (ix3 e t d)
      = loraAt (val_main_v0 (F := Ideal) x0) (gateRows x1) x2 (gateRows x3) e t d := by
  rw [val_main_v7_apply, idx7, fused_at]
  rfl

/-- The up half: the layer against the up rows of the fused parameters. -/
theorem up_at (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (e : Fin 8) (t : Fin 2048) (d : Fin 4096) :
    val_main_v8 (F := Ideal) x0 x1 x2 x3 (ix3 e t d)
      = loraAt (val_main_v0 (F := Ideal) x0) (upRows x1) x2 (upRows x3) e t d := by
  rw [val_main_v8_apply, idx8, fused_at]
  rfl

/-- The hidden activations: the spelt-out `1 / (1 + exp (−g))` is the logistic function. -/
theorem hidden_at (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (e : Fin 8) (t : Fin 2048) (d : Fin 4096) :
    val_main_v10 (F := Ideal) x0 x1 x2 x3 (ix3 e t d)
      = hidden (val_main_v0 (F := Ideal) x0) (gateRows x1) (upRows x1) x2 (gateRows x3) (upRows x3) (ix3 e t d) := by
  rw [val_main_v10_apply, val_main_v9_apply, val_main_call0_v5_apply, val_main_call0_v4_apply,
    val_main_call0_cst_0_apply, val_main_call0_v3_apply, val_main_call0_v2_apply, val_main_call0_cst_apply,
    val_main_call0_v1_apply, val_main_call0_v0_apply, up_at, gate_at]
  simp only [Ideal.mulf_def, Ideal.hostDivf_def, Ideal.addf_def, Ideal.hostUnary_exp_def, Ideal.hostNegf_def,
    Ideal.negf_def, Ideal.ofBits_def, Ideal.ofBits_one_f32]
  rfl

theorem hidden_eq (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) :
    val_main_v10 (F := Ideal) x0 x1 x2 x3
      = hidden (val_main_v0 (F := Ideal) x0) (gateRows x1) (upRows x1) x2 (gateRows x3) (upRows x3) := by
  funext i
  obtain ⟨e, t, d, rfl⟩ : ∃ e t d, i = ix3 e t d := ⟨_, _, _, eq_ix3 i⟩
  exact hidden_at x0 x1 x2 x3 e t d

/-- The second layer at an entry. -/
theorem out_at (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (x4 : (⟨S8x2048x4096, .f32⟩ : BufTy).Contents (Elt Ideal))
    (x5 : (⟨S8x8x4096, .f32⟩ : BufTy).Contents (Elt Ideal)) (x6 : (⟨S8x2048x8, .f32⟩ : BufTy).Contents (Elt Ideal)) (e : Fin 8) (t : Fin 2048) (j : Fin 2048) :
    val_main_v16 (F := Ideal) x0 x1 x2 x3 x4 x5 x6 (ix3 e t j)
      = loraAt (val_main_v10 (F := Ideal) x0 x1 x2 x3) x4 x5 x6 e t j := by
  rw [val_main_v16_apply, val_main_v11_apply, val_main_v15_apply, val_main_v14_apply, val_main_cst_0_apply,
    val_main_v13_apply]
  simp only [lidx11, ridx11, lidx13, ridx13, val_main_v12_apply, lidx12, ridx12, Ideal.addf_def, Ideal.mulf_def,
    Ideal.ofBits_def]
  rfl

/-- The reference's `[8, 2048, 2048]` buffer before the last regrouping is the expert block. -/
theorem block_eq (x0 : (⟨S16384x2048, .f32⟩ : BufTy).Contents (Elt Ideal))
    (x1 : (⟨S8x8192x2048, .f32⟩ : BufTy).Contents (Elt Ideal)) (x2 : (⟨S8x8x2048, .f32⟩ : BufTy).Contents (Elt Ideal))
    (x3 : (⟨S8x8192x8, .f32⟩ : BufTy).Contents (Elt Ideal)) (x4 : (⟨S8x2048x4096, .f32⟩ : BufTy).Contents (Elt Ideal))
    (x5 : (⟨S8x8x4096, .f32⟩ : BufTy).Contents (Elt Ideal)) (x6 : (⟨S8x2048x8, .f32⟩ : BufTy).Contents (Elt Ideal)) :
    val_main_v16 (F := Ideal) x0 x1 x2 x3 x4 x5 x6 = expertBlock (val_main_v0 (F := Ideal) x0) x1 x2 x3 x4 x5 x6 := by
  funext i
  obtain ⟨e, t, j, rfl⟩ : ∃ e t j, i = ix3 e t j := ⟨_, _, _, eq_ix3 i⟩
  rw [out_at, hidden_eq]
  rfl

theorem reference_value (m : (ℓ : Loc nD τ sig) → Buf (Elt Ideal) ℓ) (c : Dev nD) :
    Cert.ReferenceIdeal.Value.res_main_v17 (F := Ideal) m c
      = shapeCast S16384x2048
          (expertBlock
            (shapeCast S8x2048x2048 (m ((c.tc : Thread nD τ).loc main_arg0)) shapeCasts_S16384x2048_S8x2048x2048)
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6)))
          shapeCasts_S8x2048x2048_S16384x2048 := by
  rw [val_main_v17_eq]
  unfold val_main_v17
  rw [block_eq]
  rfl

end Cert.ReferenceIdeal.RefValue

end
-- ==== Proof.Claims.lean ====
/-
  The five claims. The three frames: the word-level kernel's and the idealized kernel's are the generated frame runs of
  the two launches among their host operations; the reference's is its generated run with the result dropped. The
  idealization rewrote nothing, so `preserves` has nothing to state. The value claim: from memories that agree on the
  seven arguments both programs end with the same result, the expert block of the regrouped tokens and the parameters
  regrouped as `[16384, 2048]`: the kernel's by its two launches read block by block, the reference's by its run read
  operation by operation; the two were compared against one function, so no equation between them is left.
-/
import proofs.«167695_j86242943303913_1_alg».proof.Defs
import proofs.«167695_j86242943303913_1_alg».proof.Proof.Gen.Kernel.Frame
import proofs.«167695_j86242943303913_1_alg».proof.Proof.Gen.KernelIdeal.Frame
import proofs.«167695_j86242943303913_1_alg».proof.Proof.Gen.ReferenceIdeal.Run
import proofs.«167695_j86242943303913_1_alg».proof.Proof.Gen.Pre_finite_inputs
import proofs.«167695_j86242943303913_1_alg».proof.Proof.KRun
import proofs.«167695_j86242943303913_1_alg».proof.Proof.KValue
import proofs.«167695_j86242943303913_1_alg».proof.Proof.RefValue

noncomputable section

namespace Cert.Proof.Claims

open Idealize.ShloMosaic Idealize.ShloMosaic.TcCoe Idealize.SL.Sem Cert.LoraExperts

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end holding the expert block of the kernel's arguments, regrouped. -/
theorem algebraic : Cert.algebraic_KernelIdeal_ReferenceIdeal := by
  intro m ρ m' ρ' _ hagree
  refine ⟨fun c => shapeCast Cert.KernelIdeal.S16384x2048
      (expertBlock
        (shapeCast Cert.KernelIdeal.S8x2048x2048 (m ((c.tc : Thread Cert.KernelIdeal.nD Cert.KernelIdeal.τ).loc Cert.KernelIdeal.main_arg0))
          Cert.KernelIdeal.Facts₀.shapeCasts_S16384x2048_S8x2048x2048)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      Cert.KernelIdeal.Facts₀.shapeCasts_S8x2048x2048_S16384x2048, ?_, ?_⟩
  · exact (θ_run Cert.KernelIdeal.defs _ _).mono
      (fun _ h c => ⟨(h c).1.trans (Cert.KernelIdeal.HostValue.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.reference_value m' c, (hagree c).1, (hagree c).2.1, (hagree c).2.2.1,
      (hagree c).2.2.2.1, (hagree c).2.2.2.2.1, (hagree c).2.2.2.2.2.1, (hagree c).2.2.2.2.2.2]

end Cert.Proof.Claims

end
-- ==== Proof.lean ====
/-
  The certificate of the per-expert LoRA SwiGLU block: a gate/up launch and a down-projection launch against the plain
  einsum reference. Its mathematics is in Proof/Spec.lean (one LoRA entry, SwiGLU, the two layers); Proof/PayGateUp.lean
  and Proof/PayDown.lean read one stored entry of each launch's grid step; Proof/RegionGateUp.lean and
  Proof/RegionDown.lean piece the steps' blocks into the launches' output arrays; Proof/KHost.lean reads the host
  operations around the launches and Proof/KValue.lean composes them into the kernel's result; Proof/RefValue.lean reads
  the reference's run against the same function; Proof/Claims.lean states the five claims. Here they are assembled
  behind the witnesses of the programs' stated facts.
-/
import proofs.«167695_j86242943303913_1_alg».proof.Defs
import proofs.«167695_j86242943303913_1_alg».proof.Proof.Gen.Kernel
import proofs.«167695_j86242943303913_1_alg».proof.Proof.Gen.Kernel.Skeleton
import proofs.«167695_j86242943303913_1_alg».proof.Proof.Gen.Kernel.Launch
import proofs.«167695_j86242943303913_1_alg».proof.Proof.Gen.Kernel.Points
import proofs.«167695_j86242943303913_1_alg».proof.Proof.Gen.Kernel.Frame
import proofs.«167695_j86242943303913_1_alg».proof.Proof.Gen.KernelIdeal
import proofs.«167695_j86242943303913_1_alg».proof.Proof.Gen.KernelIdeal.Skeleton
import proofs.«167695_j86242943303913_1_alg».proof.Proof.Gen.KernelIdeal.Launch
import proofs.«167695_j86242943303913_1_alg».proof.Proof.Gen.KernelIdeal.Points
import proofs.«167695_j86242943303913_1_alg».proof.Proof.Gen.KernelIdeal.Frame
import proofs.«167695_j86242943303913_1_alg».proof.Proof.Gen.ReferenceIdeal
import proofs.«167695_j86242943303913_1_alg».proof.Proof.Gen.Pre_finite_inputs
import proofs.«167695_j86242943303913_1_alg».proof.Proof.Gen.ReferenceIdeal.Run
import proofs.«167695_j86242943303913_1_alg».proof.Proof.Gen.ReferenceIdeal.Read
import proofs.«167695_j86242943303913_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernel_ideal, Cert.Proof.Claims.frame_reference_ideal,
  Cert.Proof.Claims.preserves, Cert.Proof.Claims.algebraic⟩

end Cert.Proof

end
